-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000x64 : Shape := ⟨2, ![500000, 64]⟩
abbrev S500000 : Shape := ⟨1, ![500000]⟩
abbrev S64x128 : Shape := ⟨2, ![64, 128]⟩
abbrev S128 : Shape := ⟨1, ![128]⟩
abbrev S128x128 : Shape := ⟨2, ![128, 128]⟩
abbrev S1x128 : Shape := ⟨2, ![1, 128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S500000 : S_.BroadcastsInDim S500000 (![] : Fin 0 → Fin S500000.rank)
  reducesTo_S500000_S_d0 : S500000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S256x128 : S_.BroadcastsInDim S256x128 (![] : Fin 0 → Fin S256x128.rank)
  reducesTo_S256x128_S_d0_1 : S256x128.ReducesTo [0, 1] S_
  bcast_S_S2x500000 : S_.BroadcastsInDim S2x500000 (![] : Fin 0 → Fin S2x500000.rank)
  reducesTo_S2x500000_S_d0_1 : S2x500000.ReducesTo [0, 1] S_

variable [Facts]

def fn_part4 {F : FTy → Type} [FloatOps F] (main_v63 : IVec S_ 1) (main_v65 : IVec S2x500000 1) (main_v67 : IVec S2x500000 1) : IVec S_ 1 :=
  let main_v68 : IVec S2x500000 1 := andi main_v65 main_v67
  let main_c_26 : IVec S_ 1 := constantI S_ 1 1#1
  let main_v69 : IVec S_ 1 := (fun x v => Host.reduce IntOp.andi x v reducesTo_S2x500000_S_d0_1 h_S_) main_v68 main_c_26
  let main_v70 : IVec S_ 1 := andi main_v63 main_v69
  main_v70

def fn_part3 {F : FTy → Type} [FloatOps F] (main_arg1 : IVec S2x500000 32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x500000 32 := broadcastInDim S2x500000 ![] bcast_S_S2x500000 main_c_24
  let main_v65 : IVec S2x500000 1 := cmpi .sge main_arg1 main_v64
  let main_c_25 : IVec S_ 32 := constantI S_ 32 100000#32
  let main_v66 : IVec S2x500000 32 := broadcastInDim S2x500000 ![] bcast_S_S2x500000 main_c_25
  let main_v67 : IVec S2x500000 1 := cmpi .slt main_arg1 main_v66
  fn_part4 (F := F) main_v63 main_v65 main_v67

def fn_part2 {F : FTy → Type} [FloatOps F] (main_arg1 : IVec S2x500000 32) (main_arg8 : FVec F S1x128 .f32) (main_arg9 : FVec F S128 .f32) (main_arg10 : FVec F S256x128 .f32) (main_arg11 : FVec F S128 .f32) (main_arg12 : FVec F S128x128 .f32) (main_arg13 : FVec F S128 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_v48 main_v49 main_v50

def fn_part1 {F : FTy → Type} [FloatOps F] (main_arg1 : IVec S2x500000 32) (main_arg5 : FVec F S128 .f32) (main_arg6 : FVec F S128x128 .f32) (main_arg7 : FVec F S128 .f32) (main_arg8 : FVec F S1x128 .f32) (main_arg9 : FVec F S128 .f32) (main_arg10 : FVec F S256x128 .f32) (main_arg11 : FVec F S128 .f32) (main_arg12 : FVec F S128x128 .f32) (main_arg13 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S100000x128 .f32) (main_arg1 : IVec S2x500000 32) (main_arg2 : FVec F S500000x64 .f32) (main_arg3 : FVec F S500000 .f32) (main_arg4 : FVec F S64x128 .f32) (main_arg5 : FVec F S128 .f32) (main_arg6 : FVec F S128x128 .f32) (main_arg7 : FVec F S128 .f32) (main_arg8 : FVec F S1x128 .f32) (main_arg9 : FVec F S128 .f32) (main_arg10 : FVec F S256x128 .f32) (main_arg11 : FVec F S128 .f32) (main_arg12 : FVec F S128x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x64 .f32 := Host.absf main_arg2
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S500000 .f32 := Host.absf main_arg3
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S100000x128 : Shape := ⟨2, ![100000, 128]⟩
abbrev S2x500000 : Shape := ⟨2, ![2, 500000]⟩
abbrev S500000x64 : Shape := ⟨2, ![500000, 64]⟩
abbrev S500000 : Shape := ⟨1, ![500000]⟩
abbrev S64x128 : Shape := ⟨2, ![64, 128]⟩
abbrev S128 : Shape := ⟨1, ![128]⟩
abbrev S128x128 : Shape := ⟨2, ![128, 128]⟩
abbrev S1x128 : Shape := ⟨2, ![1, 128]⟩
abbrev S256x128 : Shape := ⟨2, ![256, 128]⟩
abbrev S1x500000 : Shape := ⟨2, ![1, 500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S4000x64 : Shape := ⟨2, ![4000, 64]⟩
abbrev S4000x1 : Shape := ⟨2, ![4000, 1]⟩
abbrev S4000x128 : Shape := ⟨2, ![4000, 128]⟩

abbrev nBuf : Space → Nat
  | .hbm => 60
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x64, .f32⟩
  | .hbm, ⟨3, _⟩ => ⟨S500000, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x500000, .i32⟩
  | .hbm, ⟨15, _⟩ => ⟨S500000, .i32⟩
  | .hbm, ⟨16, _⟩ => ⟨S1x500000, .i32⟩
  | .hbm, ⟨17, _⟩ => ⟨S500000, .i32⟩
  | .hbm, ⟨18, _⟩ => ⟨S100000x128, .bf16⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S1, .i32⟩
  | .hbm, ⟨28, _⟩ => ⟨S_, .i32⟩
  | .hbm, ⟨29, _⟩ => ⟨S500000x1, .i32⟩
  | .hbm, ⟨30, _⟩ => ⟨S500000x1, .i1⟩
  | .hbm, ⟨31, _⟩ => ⟨S1x1, .i32⟩
  | .hbm, ⟨32, _⟩ => ⟨S500000x1, .i32⟩
  | .hbm, ⟨33, _⟩ => ⟨S500000x1, .i1⟩
  | .hbm, ⟨34, _⟩ => ⟨S500000x1, .i1⟩
  | .hbm, ⟨35, _⟩ => ⟨S_, .i1⟩
  | .hbm, ⟨36, _⟩ => ⟨S500000, .i1⟩
  | .hbm, ⟨37, _⟩ => ⟨S500000x128, .bf16⟩
  | .hbm, ⟨38, _⟩ => ⟨S500000x128, .i1⟩
  | .hbm, ⟨39, _⟩ => ⟨S_, .bf16⟩
  | .hbm, ⟨40, _⟩ => ⟨S500000x128, .bf16⟩
  | .hbm, ⟨41, _⟩ => ⟨S500000x128, .bf16⟩
  | .hbm, ⟨42, _⟩ => ⟨S500000x1, .f32⟩
  | .hbm, ⟨43, _⟩ => ⟨S64x128, .bf16⟩
  | .hbm, ⟨44, _⟩ => ⟨S128x128, .bf16⟩
  | .hbm, ⟨45, _⟩ => ⟨S128x128, .f32⟩
  | .hbm, ⟨46, _⟩ => ⟨S128x128, .bf16⟩
  | .hbm, ⟨47, _⟩ => ⟨S128x128, .f32⟩
  | .hbm, ⟨48, _⟩ => ⟨S128x128, .bf16⟩
  | .hbm, ⟨49, _⟩ => ⟨S128x128, .bf16⟩
  | .hbm, ⟨50, _⟩ => ⟨S500000x128, .f32⟩
  | .hbm, ⟨51, _⟩ => ⟨S_, .i32⟩
  | .hbm, ⟨52, _⟩ => ⟨S500000, .i32⟩
  | .hbm, ⟨53, _⟩ => ⟨S500000, .i1⟩
  | .hbm, ⟨54, _⟩ => ⟨S_, .i32⟩
  | .hbm, ⟨55, _⟩ => ⟨S500000, .i32⟩
  | .hbm, ⟨56, _⟩ => ⟨S500000, .i32⟩
  | .hbm, ⟨57, _⟩ => ⟨S500000, .i32⟩
  | .hbm, ⟨58, _⟩ => ⟨S500000x1, .i32⟩
  | .hbm, ⟨59, _⟩ => ⟨S100000x128, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x128, .bf16⟩
  | .local _ .vmem, ⟨5, _⟩ => ⟨S4000x128, .bf16⟩
  | .local _ .vmem, ⟨6, _⟩ => ⟨S64x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S1x128, .f32⟩
  | .local _ .vmem, ⟨11, _⟩ => ⟨S128, .f32⟩
  | .local _ .vmem, ⟨12, _⟩ => ⟨S128x128, .bf16⟩
  | .local _ .vmem, ⟨13, _⟩ => ⟨S128x128, .bf16⟩
  | .local _ .vmem, ⟨14, _⟩ => ⟨S128, .f32⟩
  | .local _ .vmem, ⟨15, _⟩ => ⟨S128x128, .bf16⟩
  | .local _ .vmem, ⟨16, _⟩ => ⟨S128, .f32⟩
  | .local _ .vmem, ⟨17, _⟩ => ⟨S4000x128, .f32⟩
  | .local _ .vmem, ⟨18, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_c : Ref sig .tc := ⟨.hbm, 51, rfl⟩
abbrev main_v15 : Ref sig .tc := ⟨.hbm, 52, rfl⟩
abbrev main_v16 : Ref sig .tc := ⟨.hbm, 53, rfl⟩
abbrev main_c_0 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  slices_S256x128_S128x128_0_0 : S256x128.Slices ![0, 0] S128x128
  slices_S256x128_S128x128_128_0 : S256x128.Slices ![128, 0] S128x128
  inb_S4000x64_S4000x64_0_0 : ∀ a, (![0, 0] : Fin 2 → Nat) a + S4000x64.size a ≤ S4000x64.size a
  h_S4000x64 : 0 < S4000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  gather_S100000x128_S500000x1_S500000x128_1_0_n_n_0_1_1128_wf : GatherDims.WF S100000x128 S500000x1 S500000x128 [1] [0] [] [0] [] 1 ![1, 128]
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S500000x64.size a
  hwx0_0 : ∀ i : grid0.Coords, EltTy.bits .f32 = 32 ∨ (Rect.block (s := S500000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S500000x1.size a
  hwx0_1 : ∀ i : grid0.Coords, EltTy.bits .f32 = 32 ∨ (Rect.block (s := S500000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S500000x128.size a
  hwx0_2 : ∀ i : grid0.Coords, EltTy.bits .bf16 = 32 ∨ (Rect.block (s := S500000x128) S4000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x128.size a ≤ S500000x128.size a
  hwx0_14 : ∀ i : grid0.Coords, EltTy.bits .f32 = 32 ∨ (Rect.block (s := S500000x128) S4000x128.size (cc0_transform_14 i) (hinb0_14 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_arg2) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S4000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000x64 : Shape := ⟨2, ![500000, 64]⟩
abbrev S500000 : Shape := ⟨1, ![500000]⟩
abbrev S64x128 : Shape := ⟨2, ![64, 128]⟩
abbrev S128 : Shape := ⟨1, ![128]⟩
abbrev S128x128 : Shape := ⟨2, ![128, 128]⟩
abbrev S1x128 : Shape := ⟨2, ![1, 128]⟩
abbrev S256x128 : Shape := ⟨2, ![256, 128]⟩
abbrev S500000x1 : Shape := ⟨2, ![500000, 1]⟩
abbrev S500000x128 : Shape := ⟨2, ![500000, 128]⟩
abbrev S_ : Shape := ⟨0, ![]⟩
abbrev S1x500000 : Shape := ⟨2, ![1, 500000]⟩
abbrev S500000x256 : Shape := ⟨2, ![500000, 256]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x64, .f32⟩
  | .hbm, ⟨3, _⟩ => ⟨S500000, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S500000x1, .f32⟩
  | .hbm, ⟨15, _⟩ => ⟨S500000x128, .f32⟩
  | .hbm, ⟨16, _⟩ => ⟨S1x128, .f32⟩
  | .hbm, ⟨17, _⟩ => ⟨S500000x128, .f32⟩
  | .hbm, ⟨18, _⟩ => ⟨S500000x128, .f32⟩
  | .hbm, ⟨19, _⟩ => ⟨S_, .f32⟩
  | .hbm, ⟨20, _⟩ => ⟨S500000x128, .f32⟩
  | .hbm, ⟨21, _⟩ => ⟨S500000x128, .f32⟩
  | .hbm, ⟨22, _⟩ => ⟨S500000x128, .f32⟩
  | .hbm, ⟨23, _⟩ => ⟨S1x128, .f32⟩
  | .hbm, ⟨24, _⟩ => ⟨S500000x128, .f32⟩
  | .hbm, ⟨25, _⟩ => ⟨S500000x128, .f32⟩
  | .hbm, ⟨26, _⟩ => ⟨S500000x128, .f32⟩
  | .hbm, ⟨27, _⟩ => ⟨S1x128, .f32⟩
  | .hbm, ⟨28, _⟩ => ⟨S500000x128, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S_, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S500000x128, .f32⟩
  | .hbm, ⟨39, _⟩ => ⟨S1x500000, .i32⟩
  | .hbm, ⟨40, _⟩ => ⟨S500000, .i32⟩
  | .hbm, ⟨41, _⟩ => ⟨S1x500000, .i32⟩
  | .hbm, ⟨42, _⟩ => ⟨S500000, .i32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S_, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000x1, .i32⟩
  | .hbm, ⟨51, _⟩ => ⟨S500000x128, .f32⟩
  | .hbm, ⟨52, _⟩ => ⟨S500000x256, .f32⟩
  | .hbm, ⟨53, _⟩ => ⟨S500000x128, .f32⟩
  | .hbm, ⟨54, _⟩ => ⟨S1x128, .f32⟩
  | .hbm, ⟨55, _⟩ => ⟨S500000x128, .f32⟩
  | .hbm, ⟨56, _⟩ => ⟨S500000x128, .f32⟩
  | .hbm, ⟨57, _⟩ => ⟨S_, .f32⟩
  | .hbm, ⟨58, _⟩ => ⟨S500000x128, .f32⟩
  | .hbm, ⟨59, _⟩ => ⟨S500000x128, .f32⟩
  | .hbm, ⟨60, _⟩ => ⟨S500000x128, .f32⟩
  | .hbm, ⟨61, _⟩ => ⟨S1x128, .f32⟩
  | .hbm, ⟨62, _⟩ => ⟨S500000x128, .f32⟩
  | .hbm, ⟨63, _⟩ => ⟨S500000x128, .f32⟩
  | .hbm, ⟨64, _⟩ => ⟨S_, .f32⟩
  | .hbm, ⟨65, _⟩ => ⟨S100000x128, .f32⟩
  | .hbm, ⟨66, _⟩ => ⟨S500000x1, .i32⟩
  | .hbm, ⟨67, _⟩ => ⟨S100000x128, .f32⟩
  | .hbm, ⟨68, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_c_1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  bcast_S500000_S500000x1_0 : S500000.BroadcastsInDim S500000x1 (![0] : Fin 1 → Fin S500000x1.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  concatenates_S500000x128_S500000x128_S500000x256_d1 : Shape.Concatenates [S500000x128, S500000x128] S500000x256 1
  bcast_S_S100000x128 : S_.BroadcastsInDim S100000x128 (![] : Fin 0 → Fin S100000x128.rank)
  dot_S500000x64_S64x128_S500000x128_1_0_0_1_n_n_wf : DotDims.WF S500000x64 S64x128 S500000x128 [1] [0] [0] [1] [] []
  dot_S500000x128_S128x128_S500000x128_1_0_0_1_n_n_wf : DotDims.WF S500000x128 S128x128 S500000x128 [1] [0] [0] [1] [] []
  dot_S500000x1_S1x128_S500000x128_1_0_0_1_n_n_wf : DotDims.WF S500000x1 S1x128 S500000x128 [1] [0] [0] [1] [] []
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  scatter_S100000x128_S500000x1_S500000x128_1_0_0_1_wf : ScatterDims.WF S100000x128 S500000x1 S500000x128 [1] [0] [0] 1

variable [Facts₀]

def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x1_S1x128_S500000x128_1_0_0_1_n_n : DotDims S500000x1 S1x128 S500000x128 where
  lhsContracting := [1]
  rhsContracting := [0]
  lhsNonContracting := [0]
  rhsNonContracting := [1]
  lhsBatch := []
  rhsBatch := []
  wf := dot_S500000x1_S1x128_S500000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.Spec.lean ====
/-
  The message of one edge, as a function of the arrays it reads.

  For an edge e with attribute row a = ea[e, ·], time stamp s = ts[e, 0] and gathered source-node row g = xg[e, ·]:
    hidden  h[i]  = max (Σ_l a[l] · We1[l, i] + be1[i]) 0
    gate    w[j]  = logistic (s · Wt[0, j] + bt[j])
    feature f[j]  = (Σ_i h[i] · We2[i, j] + be2[j]) · w[j]
    hidden  n[k]  = max ((Σ_j g[j] · Wa[j, k] + Σ_j f[j] · Wb[j, k]) + bn1[k]) 0
    message m[c]  = Σ_k n[k] · Wn2[k, c] + bn2[c]
  over the extended reals. Row e of the result depends on row e of ea, ts and xg only, so the same definition
  serves a block of rows and the whole array (the number of rows R is a parameter).
-/
import Idealize.ShloMosaic.PureOps.Ideal
import Idealize.ShloMosaic.Lib.ValueIdx

noncomputable section

namespace Cert.EdgeConv

open Idealize.ShloMosaic Idealize.ShloMosaic.ValueIdx

/-- An [a, b] table and an [a] vector of extended reals. -/
abbrev Mat (a b : ℕ) := (⟨2, ![a, b]⟩ : Shape).Idx → EReal
abbrev Vc (a : ℕ) := (⟨1, ![a]⟩ : Shape).Idx → EReal

variable {R : ℕ}

/-- The edge encoder's hidden layer. -/
def hidden (ea : Mat R 64) (We1 : Mat 64 128) (be1 : Vc 128) (e : Fin R) (i : Fin 128) : EReal :=
  max ((∑ l : Fin 64, ea (ix2 e l) * We1 (ix2 l i)) + be1 (ix1 i)) 0

/-- The time gate. -/
def gate (ts : Mat R 1) (Wt : Mat 1 128) (bt : Vc 128) (e : Fin R) (j : Fin 128) : EReal :=
  Ideal.logistic (ts (ix2 e (0 : Fin 1)) * Wt (ix2 (0 : Fin 1) j) + bt (ix1 j))

/-- The gated edge feature. -/
def feature (ea : Mat R 64) (ts : Mat R 1) (We1 : Mat 64 128) (be1 : Vc 128) (We2 : Mat 128 128) (be2 : Vc 128)
    (Wt : Mat 1 128) (bt : Vc 128) (e : Fin R) (j : Fin 128) : EReal :=
  ((∑ i : Fin 128, hidden ea We1 be1 e i * We2 (ix2 i j)) + be2 (ix1 j)) * gate ts Wt bt e j

/-- The node encoder's hidden layer, the weight of the concatenated row split into its two halves. -/
def nodeHidden (xg : Mat R 128) (f : Fin R → Fin 128 → EReal) (Wa Wb : Mat 128 128) (bn1 : Vc 128)
    (e : Fin R) (k : Fin 128) : EReal :=
  max (((∑ j : Fin 128, xg (ix2 e j) * Wa (ix2 j k)) + (∑ j : Fin 128, f e j * Wb (ix2 j k))) + bn1 (ix1 k)) 0

/-- The message of edge e at channel c. -/
def message (ea : Mat R 64) (ts : Mat R 1) (xg : Mat R 128) (We1 : Mat 64 128) (be1 : Vc 128) (We2 : Mat 128 128)
    (be2 : Vc 128) (Wt : Mat 1 128) (bt : Vc 128) (Wa Wb : Mat 128 128) (bn1 : Vc 128) (Wn2 : Mat 128 128)
    (bn2 : Vc 128) (e : Fin R) (c : Fin 128) : EReal :=
  (∑ k : Fin 128, nodeHidden xg (feature ea ts We1 be1 We2 be2 Wt bt) Wa Wb bn1 e k * Wn2 (ix2 k c)) + bn2 (ix1 c)

/-- The messages as an [R, 128] table. -/
def messages (ea : Mat R 64) (ts : Mat R 1) (xg : Mat R 128) (We1 : Mat 64 128) (be1 : Vc 128) (We2 : Mat 128 128)
    (be2 : Vc 128) (Wt : Mat 1 128) (bt : Vc 128) (Wa Wb : Mat 128 128) (bn1 : Vc 128) (Wn2 : Mat 128 128)
    (bn2 : Vc 128) : Mat R 128 :=
  fun i => message ea ts xg We1 be1 We2 be2 Wt bt Wa Wb bn1 Wn2 bn2 (i 0) (i 1)

/-- The upper and the lower 128 rows of a [256, 128] weight. -/
def topHalf (W : Mat 256 128) : Mat 128 128 :=
  fun i => W (ix2 (⟨(i 0).val, by have := idx2_lt0 i; omega⟩ : Fin 256) (i 1))
def botHalf (W : Mat 256 128) : Mat 128 128 :=
  fun i => W (ix2 (⟨128 + (i 0).val, by have := idx2_lt0 i; omega⟩ : Fin 256) (i 1))

/-- The rows of the node table x that the edges' source indices name: row e is x[row(e), ·], the index word read as a
    natural number (and clamped into the table, which changes nothing on indices in range). -/
def gathered (X : Mat 100000 128) (EI : IVec ⟨2, ![2, 500000]⟩ 32) : Mat 500000 128 :=
  fun i => X (ix2 (⟨min (EI (ix2 (0 : Fin 2) (i 0))).toNat 99999, by omega⟩ : Fin 100000) (i 1))

/-- Every source and destination index names a node: as a natural number the word is below 100000. -/
def InRange (EI : IVec ⟨2, ![2, 500000]⟩ 32) : Prop :=
  ∀ (r : Fin 2) (e : Fin 500000), (EI (ix2 r e)).toNat < 100000

/-- A vector of per-edge values as an [R, 1] column. -/
def colOf (ts : Vc R) : Mat R 1 := fun i => ts (ix1 (i 0))

/-- The destination indices as the [500000, 1] column of scatter indices. -/
def destCol (EI : IVec ⟨2, ![2, 500000]⟩ 32) : IVec ⟨2, ![500000, 1]⟩ 32 := fun i => EI (ix2 (1 : Fin 2) (i 0))

/-- Row e of the messages reads row e of the per-edge tables only: tables that agree on one row give that row's
    message. Stated for a row p of a block against row e of the whole tables. -/
theorem message_congr_row {R' : ℕ} (ea : Mat R 64) (ts : Mat R 1) (xg : Mat R 128) (ea' : Mat R' 64) (ts' : Mat R' 1)
    (xg' : Mat R' 128) (We1 : Mat 64 128) (be1 : Vc 128) (We2 : Mat 128 128)
    (be2 : Vc 128) (Wt : Mat 1 128) (bt : Vc 128) (Wa Wb : Mat 128 128) (bn1 : Vc 128) (Wn2 : Mat 128 128)
    (bn2 : Vc 128) (p : Fin R) (e : Fin R') (c : Fin 128)
    (hea : ∀ l : Fin 64, ea (ix2 p l) = ea' (ix2 e l)) (hts : ts (ix2 p (0 : Fin 1)) = ts' (ix2 e (0 : Fin 1)))
    (hxg : ∀ j : Fin 128, xg (ix2 p j) = xg' (ix2 e j)) :
    message ea ts xg We1 be1 We2 be2 Wt bt Wa Wb bn1 Wn2 bn2 p c
      = message ea' ts' xg' We1 be1 We2 be2 Wt bt Wa Wb bn1 Wn2 bn2 e c := by
  have hh : ∀ i, hidden ea We1 be1 p i = hidden ea' We1 be1 e i := fun i => by
    unfold hidden; simp only [hea]
  have hf : ∀ j, feature ea ts We1 be1 We2 be2 Wt bt p j = feature ea' ts' We1 be1 We2 be2 Wt bt e j := fun j => by
    unfold feature gate; simp only [hh, hts]
  unfold message nodeHidden
  simp only [hf, hxg]

end Cert.EdgeConv

end
-- ==== Proof.Precondition.lean ====
/-
  The precondition, read back: every float input is finite, and every word of the edge-index table is a node number,
  0 ≤ w < 100000 as a signed word. Of this the proof uses the second part only: such a word, read as a natural number, is
  below 100000.
-/
import proofs.«414559_j7112465842373_3_alg».proof.Pre_finite_inputs
import proofs.«414559_j7112465842373_3_alg».proof.Proof.Spec
import Idealize.ShloMosaic.Lib.ReduceAll
import Idealize.ShloMosaic.Lib.StableHlo.Predicate

noncomputable section

namespace Cert.EdgeConv.Pre

open Idealize.ShloMosaic Idealize.ShloMosaic.ValueIdx Cert.Pre_finite_inputs Cert.EdgeConv

variable [Cert.Pre_finite_inputs.Facts]

/-- The scalar shape has one index. -/
instance : Subsingleton S_.Idx := ⟨fun a b => funext fun d => d.elim0⟩

/-- A word that is at least 0 and below 100000 as a signed word is below 100000 as a natural number. -/
theorem toNat_lt_of_signed (w : BitVec 32) (h0 : IntOp.cmpi .sge w 0#32 = 1#1) (h1 : IntOp.cmpi .slt w 100000#32 = 1#1) :
    w.toNat < 100000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (100000#32 : BitVec 32).toInt = 100000 := by decide
  rw [e0] at h0
  rw [e1] at h1
  have hw := w.isLt
  have hc := BitVec.toInt_eq_toNat_cond w
  split at hc <;> omega

/-- THE PRECONDITION GIVES THE RANGE: where the printed predicate is all ones, every index word names a node. -/
theorem inRange_of_pre (a0 : FVec Ideal S100000x128 .f32) (a1 : IVec S2x500000 32) (a2 : FVec Ideal S500000x64 .f32)
    (a3 : FVec Ideal S500000 .f32) (a4 : FVec Ideal S64x128 .f32) (a5 : FVec Ideal S128 .f32)
    (a6 : FVec Ideal S128x128 .f32) (a7 : FVec Ideal S128 .f32) (a8 : FVec Ideal S1x128 .f32) (a9 : FVec Ideal S128 .f32)
    (a10 : FVec Ideal S256x128 .f32) (a11 : FVec Ideal S128 .f32) (a12 : FVec Ideal S128x128 .f32)
    (a13 : FVec Ideal S128 .f32)
    (h : fn (F := Ideal) a0 a1 a2 a3 a4 a5 a6 a7 a8 a9 a10 a11 a12 a13 = fun _ => 1#1) : InRange a1 := by
  have h0 := congrFun h ix0
  unfold fn fn_part1 fn_part2 fn_part3 fn_part4 at h0
  dsimp only at h0
  have h69 := (IntOp.andi_eq_one.mp h0).2
  intro r e
  have hb := Host.reduce_andi_all _ _ _ _ _ h69 (ix2 r e)
  obtain ⟨hge, hlt⟩ := IntOp.andi_eq_one.mp hb
  exact toNat_lt_of_signed _ hge hlt

end Cert.EdgeConv.Pre

end
-- ==== Proof.Blocks.lean ====
/-
  From blocks to arrays.

  The launch runs the body at 125 grid points. At point t the three per-edge windows (edge attributes, time-stamp column,
  gathered node rows) hold rows 4000·t … 4000·t + 3999 of their arrays, the eleven weight and bias windows hold their whole
  arrays, and the body's stored block is written back to rows 4000·t … 4000·t + 3999 of the message array. The 125 blocks
  tile the 500000 rows, so the message array ends holding the messages of all edges.
-/
import proofs.«414559_j7112465842373_3_alg».proof.Proof.Gen.KernelIdeal.Frame
import proofs.«414559_j7112465842373_3_alg».proof.Proof.Spec
import Idealize.ShloMosaic.Lib.Pipeline.Value

set_option maxRecDepth 16384

noncomputable section

namespace Cert.EdgeConv.Blocks

open Idealize.ShloMosaic Idealize.ShloMosaic.TcCoe Idealize.ShloMosaic.ValueIdx
open Idealize.SL.Sem Cert.KernelIdeal Cert.KernelIdeal.Gen Cert.EdgeConv

variable (m : (ℓ : Loc nD τ sig) → Buf (Elt Ideal) ℓ)

/-! ## The printed index maps, decided over the grid -/

/-- The per-edge windows and the output window sit at block (t, 0). -/
theorem moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_14.index t (0 : Fin 2) = t.val ∧ win0_14.index t (1 : Fin 2) = 0 :=
  (by decide +kernel : ∀ t : Fin grid0.N, _)

/-- The weight and bias windows sit at block 0 on every axis. -/
theorem zero3 : ∀ t : Fin cfg0.N, win0_3.index t (0 : Fin 2) = 0 ∧ win0_3.index t (1 : Fin 2) = 0 :=
  (by decide +kernel : ∀ t : Fin grid0.N, _)
theorem zero5 : ∀ t : Fin cfg0.N, win0_5.index t (0 : Fin 2) = 0 ∧ win0_5.index t (1 : Fin 2) = 0 :=
  (by decide +kernel : ∀ t : Fin grid0.N, _)
theorem zero7 : ∀ t : Fin cfg0.N, win0_7.index t (0 : Fin 2) = 0 ∧ win0_7.index t (1 : Fin 2) = 0 :=
  (by decide +kernel : ∀ t : Fin grid0.N, _)
theorem zero9 : ∀ t : Fin cfg0.N, win0_9.index t (0 : Fin 2) = 0 ∧ win0_9.index t (1 : Fin 2) = 0 :=
  (by decide +kernel : ∀ t : Fin grid0.N, _)
theorem zero10 : ∀ t : Fin cfg0.N, win0_10.index t (0 : Fin 2) = 0 ∧ win0_10.index t (1 : Fin 2) = 0 :=
  (by decide +kernel : ∀ t : Fin grid0.N, _)
theorem zero12 : ∀ t : Fin cfg0.N, win0_12.index t (0 : Fin 2) = 0 ∧ win0_12.index t (1 : Fin 2) = 0 :=
  (by decide +kernel : ∀ t : Fin grid0.N, _)
theorem zero4 : ∀ t : Fin cfg0.N, win0_4.index t (0 : Fin 1) = 0 :=
  (by decide +kernel : ∀ t : Fin grid0.N, _)
theorem zero6 : ∀ t : Fin cfg0.N, win0_6.index t (0 : Fin 1) = 0 :=
  (by decide +kernel : ∀ t : Fin grid0.N, _)
theorem zero8 : ∀ t : Fin cfg0.N, win0_8.index t (0 : Fin 1) = 0 :=
  (by decide +kernel : ∀ t : Fin grid0.N, _)
theorem zero11 : ∀ t : Fin cfg0.N, win0_11.index t (0 : Fin 1) = 0 :=
  (by decide +kernel : ∀ t : Fin grid0.N, _)
theorem zero13 : ∀ t : Fin cfg0.N, win0_13.index t (0 : Fin 1) = 0 :=
  (by decide +kernel : ∀ t : Fin grid0.N, _)

/-- A grid point is below 125. -/
theorem point_lt (t : Fin cfg0.N) : t.val < 125 := Nat.lt_of_lt_of_eq t.isLt N_0

/-- Row p of point t's block is row 4000·t + p of the array. -/
def rowAt (t : Fin cfg0.N) (p : Fin 4000) : Fin 500000 := ⟨t.val * 4000 + p.val, by have := point_lt t; omega⟩

/-! ## The input windows' blocks -/

theorem blk0_apply (c : Dev nD) (t : Fin cfg0.N) (p : Fin 4000) (l : Fin 64) :
    (iblk m c 0 t : S4000x64.Idx → EReal) (ix2 p l) = V m c main_arg2 (ix2 (rowAt t p) l) := by
  show V m c main_arg2 (((cfg0.win 0).blk t).view.emb (ix2 p l)) = V m c main_arg2 (ix2 (rowAt t p) l)
  refine congrArg (V m c main_arg2) (funext fun ax => Fin.ext ?_)
  obtain ⟨e0, e1, -⟩ := moving t
  match ax with
  | ⟨0, _⟩ => show win0_0.index t (0 : Fin 2) * 4000 + 1 * p.val = t.val * 4000 + p.val; rw [e0]; omega
  | ⟨1, _⟩ => show win0_0.index t (1 : Fin 2) * 64 + 1 * l.val = l.val; rw [e1]; omega

theorem blk1_apply (c : Dev nD) (t : Fin cfg0.N) (p : Fin 4000) (u : Fin 1) :
    (iblk m c 1 t : S4000x1.Idx → EReal) (ix2 p u) = V m c main_v6 (ix2 (rowAt t p) u) := by
  show V m c main_v6 (((cfg0.win 1).blk t).view.emb (ix2 p u)) = V m c main_v6 (ix2 (rowAt t p) u)
  refine congrArg (V m c main_v6) (funext fun ax => Fin.ext ?_)
  obtain ⟨-, -, e0, e1, -⟩ := moving t
  match ax with
  | ⟨0, _⟩ => show win0_1.index t (0 : Fin 2) * 4000 + 1 * p.val = t.val * 4000 + p.val; rw [e0]; omega
  | ⟨1, _⟩ => show win0_1.index t (1 : Fin 2) * 1 + 1 * u.val = u.val; rw [e1]; omega

theorem blk2_apply (c : Dev nD) (t : Fin cfg0.N) (p : Fin 4000) (j : Fin 128) :
    (iblk m c 2 t : S4000x128.Idx → EReal) (ix2 p j) = V m c main_v5 (ix2 (rowAt t p) j) := by
  show V m c main_v5 (((cfg0.win 2).blk t).view.emb (ix2 p j)) = V m c main_v5 (ix2 (rowAt t p) j)
  refine congrArg (V m c main_v5) (funext fun ax => Fin.ext ?_)
  obtain ⟨-, -, -, -, e0, e1, -⟩ := moving t
  match ax with
  | ⟨0, _⟩ => show win0_2.index t (0 : Fin 2) * 4000 + 1 * p.val = t.val * 4000 + p.val; rw [e0]; omega
  | ⟨1, _⟩ => show win0_2.index t (1 : Fin 2) * 128 + 1 * j.val = j.val; rw [e1]; omega

theorem blk3_eq (c : Dev nD) (t : Fin cfg0.N) : (iblk m c 3 t : S64x128.Idx → EReal) = V m c main_v7 := by
  funext y
  obtain ⟨a, b, rfl⟩ : ∃ (a : Fin 64) (b : Fin 128), y = ix2 a b := ⟨y 0, y 1, eq_ix2 y⟩
  show V m c main_v7 (((cfg0.win 3).blk t).view.emb (ix2 a b)) = V m c main_v7 (ix2 a b)
  refine congrArg (V m c main_v7) (funext fun ax => Fin.ext ?_)
  obtain ⟨z0, z1⟩ := zero3 t
  match ax with
  | ⟨0, _⟩ => show win0_3.index t (0 : Fin 2) * 64 + 1 * a.val = a.val; rw [z0]; omega
  | ⟨1, _⟩ => show win0_3.index t (1 : Fin 2) * 128 + 1 * b.val = b.val; rw [z1]; omega

theorem blk4_eq (c : Dev nD) (t : Fin cfg0.N) : (iblk m c 4 t : S128.Idx → EReal) = V m c main_arg5 := by
  funext y
  obtain ⟨a, rfl⟩ : ∃ a : Fin 128, y = ix1 a := ⟨y 0, eq_ix1 y⟩
  show V m c main_arg5 (((cfg0.win 4).blk t).view.emb (ix1 a)) = V m c main_arg5 (ix1 a)
  refine congrArg (V m c main_arg5) (funext fun ax => Fin.ext ?_)
  match ax with
  | ⟨0, _⟩ => show win0_4.index t (0 : Fin 1) * 128 + 1 * a.val = a.val; rw [zero4 t]; omega

theorem blk5_eq (c : Dev nD) (t : Fin cfg0.N) : (iblk m c 5 t : S128x128.Idx → EReal) = V m c main_v8 := by
  funext y
  obtain ⟨a, b, rfl⟩ : ∃ (a : Fin 128) (b : Fin 128), y = ix2 a b := ⟨y 0, y 1, eq_ix2 y⟩
  show V m c main_v8 (((cfg0.win 5).blk t).view.emb (ix2 a b)) = V m c main_v8 (ix2 a b)
  refine congrArg (V m c main_v8) (funext fun ax => Fin.ext ?_)
  obtain ⟨z0, z1⟩ := zero5 t
  match ax with
  | ⟨0, _⟩ => show win0_5.index t (0 : Fin 2) * 128 + 1 * a.val = a.val; rw [z0]; omega
  | ⟨1, _⟩ => show win0_5.index t (1 : Fin 2) * 128 + 1 * b.val = b.val; rw [z1]; omega

theorem blk6_eq (c : Dev nD) (t : Fin cfg0.N) : (iblk m c 6 t : S128.Idx → EReal) = V m c main_arg7 := by
  funext y
  obtain ⟨a, rfl⟩ : ∃ a : Fin 128, y = ix1 a := ⟨y 0, eq_ix1 y⟩
  show V m c main_arg7 (((cfg0.win 6).blk t).view.emb (ix1 a)) = V m c main_arg7 (ix1 a)
  refine congrArg (V m c main_arg7) (funext fun ax => Fin.ext ?_)
  match ax with
  | ⟨0, _⟩ => show win0_6.index t (0 : Fin 1) * 128 + 1 * a.val = a.val; rw [zero6 t]; omega

theorem blk7_eq (c : Dev nD) (t : Fin cfg0.N) : (iblk m c 7 t : S1x128.Idx → EReal) = V m c main_arg8 := by
  funext y
  obtain ⟨a, b, rfl⟩ : ∃ (a : Fin 1) (b : Fin 128), y = ix2 a b := ⟨y 0, y 1, eq_ix2 y⟩
  show V m c main_arg8 (((cfg0.win 7).blk t).view.emb (ix2 a b)) = V m c main_arg8 (ix2 a b)
  refine congrArg (V m c main_arg8) (funext fun ax => Fin.ext ?_)
  obtain ⟨z0, z1⟩ := zero7 t
  match ax with
  | ⟨0, _⟩ => show win0_7.index t (0 : Fin 2) * 1 + 1 * a.val = a.val; rw [z0]; omega
  | ⟨1, _⟩ => show win0_7.index t (1 : Fin 2) * 128 + 1 * b.val = b.val; rw [z1]; omega

theorem blk8_eq (c : Dev nD) (t : Fin cfg0.N) : (iblk m c 8 t : S128.Idx → EReal) = V m c main_arg9 := by
  funext y
  obtain ⟨a, rfl⟩ : ∃ a : Fin 128, y = ix1 a := ⟨y 0, eq_ix1 y⟩
  show V m c main_arg9 (((cfg0.win 8).blk t).view.emb (ix1 a)) = V m c main_arg9 (ix1 a)
  refine congrArg (V m c main_arg9) (funext fun ax => Fin.ext ?_)
  match ax with
  | ⟨0, _⟩ => show win0_8.index t (0 : Fin 1) * 128 + 1 * a.val = a.val; rw [zero8 t]; omega

theorem blk9_eq (c : Dev nD) (t : Fin cfg0.N) : (iblk m c 9 t : S128x128.Idx → EReal) = V m c main_v10 := by
  funext y
  obtain ⟨a, b, rfl⟩ : ∃ (a : Fin 128) (b : Fin 128), y = ix2 a b := ⟨y 0, y 1, eq_ix2 y⟩
  show V m c main_v10 (((cfg0.win 9).blk t).view.emb (ix2 a b)) = V m c main_v10 (ix2 a b)
  refine congrArg (V m c main_v10) (funext fun ax => Fin.ext ?_)
  obtain ⟨z0, z1⟩ := zero9 t
  match ax with
  | ⟨0, _⟩ => show win0_9.index t (0 : Fin 2) * 128 + 1 * a.val = a.val; rw [z0]; omega
  | ⟨1, _⟩ => show win0_9.index t (1 : Fin 2) * 128 + 1 * b.val = b.val; rw [z1]; omega

theorem blk10_eq (c : Dev nD) (t : Fin cfg0.N) : (iblk m c 10 t : S128x128.Idx → EReal) = V m c main_v12 := by
  funext y
  obtain ⟨a, b, rfl⟩ : ∃ (a : Fin 128) (b : Fin 128), y = ix2 a b := ⟨y 0, y 1, eq_ix2 y⟩
  show V m c main_v12 (((cfg0.win 10).blk t).view.emb (ix2 a b)) = V m c main_v12 (ix2 a b)
  refine congrArg (V m c main_v12) (funext fun ax => Fin.ext ?_)
  obtain ⟨z0, z1⟩ := zero10 t
  match ax with
  | ⟨0, _⟩ => show win0_10.index t (0 : Fin 2) * 128 + 1 * a.val = a.val; rw [z0]; omega
  | ⟨1, _⟩ => show win0_10.index t (1 : Fin 2) * 128 + 1 * b.val = b.val; rw [z1]; omega

theorem blk11_eq (c : Dev nD) (t : Fin cfg0.N) : (iblk m c 11 t : S128.Idx → EReal) = V m c main_arg11 := by
  funext y
  obtain ⟨a, rfl⟩ : ∃ a : Fin 128, y = ix1 a := ⟨y 0, eq_ix1 y⟩
  show V m c main_arg11 (((cfg0.win 11).blk t).view.emb (ix1 a)) = V m c main_arg11 (ix1 a)
  refine congrArg (V m c main_arg11) (funext fun ax => Fin.ext ?_)
  match ax with
  | ⟨0, _⟩ => show win0_11.index t (0 : Fin 1) * 128 + 1 * a.val = a.val; rw [zero11 t]; omega

theorem blk12_eq (c : Dev nD) (t : Fin cfg0.N) : (iblk m c 12 t : S128x128.Idx → EReal) = V m c main_v13 := by
  funext y
  obtain ⟨a, b, rfl⟩ : ∃ (a : Fin 128) (b : Fin 128), y = ix2 a b := ⟨y 0, y 1, eq_ix2 y⟩
  show V m c main_v13 (((cfg0.win 12).blk t).view.emb (ix2 a b)) = V m c main_v13 (ix2 a b)
  refine congrArg (V m c main_v13) (funext fun ax => Fin.ext ?_)
  obtain ⟨z0, z1⟩ := zero12 t
  match ax with
  | ⟨0, _⟩ => show win0_12.index t (0 : Fin 2) * 128 + 1 * a.val = a.val; rw [z0]; omega
  | ⟨1, _⟩ => show win0_12.index t (1 : Fin 2) * 128 + 1 * b.val = b.val; rw [z1]; omega

theorem blk13_eq (c : Dev nD) (t : Fin cfg0.N) : (iblk m c 13 t : S128.Idx → EReal) = V m c main_arg13 := by
  funext y
  obtain ⟨a, rfl⟩ : ∃ a : Fin 128, y = ix1 a := ⟨y 0, eq_ix1 y⟩
  show V m c main_arg13 (((cfg0.win 13).blk t).view.emb (ix1 a)) = V m c main_arg13 (ix1 a)
  refine congrArg (V m c main_arg13) (funext fun ax => Fin.ext ?_)
  match ax with
  | ⟨0, _⟩ => show win0_13.index t (0 : Fin 1) * 128 + 1 * a.val = a.val; rw [zero13 t]; omega

/-! ## The output window: where point t's block lands, and the cover -/

/-- Entry (p, q) of point t's block of the message array is its entry (4000·t + p, q). -/
theorem emb14 (t : Fin cfg0.N) (p : Fin 4000) (q : Fin 128) :
    ((cfg0.win 14).blk t).view.emb (ix2 p q) = (ix2 (rowAt t p) q : S500000x128.Idx) := by
  funext ax
  refine Fin.ext ?_
  obtain ⟨-, -, -, -, -, -, e0, e1⟩ := moving t
  match ax with
  | ⟨0, _⟩ => show win0_14.index t (0 : Fin 2) * 4000 + 1 * p.val = t.val * 4000 + p.val; rw [e0]; omega
  | ⟨1, _⟩ => show win0_14.index t (1 : Fin 2) * 128 + 1 * q.val = q.val; rw [e1]; omega

/-- An index of the message array is in point t's block iff each coordinate is in the block's range on its axis. -/
theorem mem_blk14 (t : Fin cfg0.N) (i : S500000x128.Idx) :
    i ∈ ((cfg0.win 14).blk t).view.set ↔ ∀ a : Fin 2, win0_14.index t a * S4000x128.size a ≤ (i a).val
      ∧ (i a).val < win0_14.index t a * S4000x128.size a + S4000x128.size a := by
  show i ∈ ((View.whole main_v14).slice (win0_14.rect t)).set ↔ _
  rw [View.set_slice_whole, Rect.mem_set_unit]
  exact Iff.rfl

/-- Every row lies in the block of the point that is its quotient by 4000. -/
theorem cover14 (i : S500000x128.Idx) :
    ∃ t : Fin cfg0.N, (cfg0.win 14).flush t = true ∧ i ∈ ((cfg0.win 14).blk t).view.set := by
  have h0 : (i 0).val < 500000 := (i 0).isLt
  have h1 : (i 1).val < 128 := (i 1).isLt
  have hN : cfg0.N = 125 := N_0
  refine ⟨⟨(i 0).val / 4000, by rw [hN]; omega⟩, flush0_14 _, ?_⟩
  rw [mem_blk14]
  obtain ⟨-, -, -, -, -, -, e0, e1⟩ := moving ⟨(i 0).val / 4000, by rw [hN]; omega⟩
  intro a
  match a with
  | ⟨0, _⟩ =>
    show win0_14.index _ (0 : Fin 2) * 4000 ≤ (i 0).val ∧ (i 0).val < win0_14.index _ (0 : Fin 2) * 4000 + 4000
    rw [e0]; show (i 0).val / 4000 * 4000 ≤ (i 0).val ∧ (i 0).val < (i 0).val / 4000 * 4000 + 4000; omega
  | ⟨1, _⟩ =>
    show win0_14.index _ (1 : Fin 2) * 128 ≤ (i 1).val ∧ (i 1).val < win0_14.index _ (1 : Fin 2) * 128 + 128
    rw [e1]; omega

end Cert.EdgeConv.Blocks

end
-- ==== Proof.LibPlainDot.lean ====
/-
  GENERAL LEMMAS: the product of an [M, K] table by a [K, N] table, contracting the left operand's last axis with the
  right operand's first (dimension numbers [1] x [0], no batch axes), read at an index over the extended reals: element
  (p, q) is the sum over k : Fin K of l[p, k] · r[k, q]. Stated for the matrix unit's product into a zero accumulator and
  for the host's dot_general.
-/
import Idealize.ShloMosaic.PureOps.Ideal.Laws
import Idealize.ShloMosaic.Lib.ValueIdx

noncomputable section

namespace Cert.PlainDot

open Idealize.ShloMosaic Idealize.ShloMosaic.ValueIdx

/-- The contraction sum of a plain dot at (p, q), re-indexed by k : Fin K. -/
theorem contr_sum {M K N : ℕ} (l : (⟨2, ![M, K]⟩ : Shape).Idx → EReal) (r : (⟨2, ![K, N]⟩ : Shape).Idx → EReal)
    (p : Fin M) (q : Fin N) :
    (∑ k : (DotDims.plain M K N).contr.Idx,
        l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have l0 : ∀ κ : (DotDims.plain M K N).contr.Idx, ((DotDims.plain M K N).lhsIdx (ix2 p q) κ 0).val = p.val :=
    fun κ => rfl
  have l1 : ∀ κ : (DotDims.plain M K N).contr.Idx,
      ((DotDims.plain M K N).lhsIdx (ix2 p q) κ 1).val = (κ ⟨0, Nat.one_pos⟩).val :=
    fun κ => (DotDims.plain M K N).lhsIdx_val_of_single rfl (ix2 p q) κ
  have r0 : ∀ κ : (DotDims.plain M K N).contr.Idx,
      ((DotDims.plain M K N).rhsIdx (ix2 p q) κ 0).val = (κ ⟨0, Nat.one_pos⟩).val :=
    fun κ => (DotDims.plain M K N).rhsIdx_val_of_single rfl (ix2 p q) κ
  have r1 : ∀ κ : (DotDims.plain M K N).contr.Idx, ((DotDims.plain M K N).rhsIdx (ix2 p q) κ 1).val = q.val :=
    fun κ => rfl
  have el : (DotDims.plain M K N).lhsIdx (ix2 p q) ((contrEquiv1 (DotDims.plain M K N) K rfl rfl).symm k) = ix2 p k :=
    funext fun a => Fin.ext (by
      match a with
      | ⟨0, _⟩ => exact l0 _
      | ⟨1, _⟩ => exact (l1 _).trans hk)
  have er : (DotDims.plain M K N).rhsIdx (ix2 p q) ((contrEquiv1 (DotDims.plain M K N) K rfl rfl).symm k) = ix2 k q :=
    funext fun a => Fin.ext (by
      match a with
      | ⟨0, _⟩ => exact (r0 _).trans hk
      | ⟨1, _⟩ => exact r1 _)
  rw [el, er]

/-- The matrix unit's product into the zero accumulator, at (p, q). -/
theorem matmul_zero_apply {M K N : ℕ} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact contr_sum l r p q

/-- The host's dot_general, at (p, q). -/
theorem dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact contr_sum l r p q

end Cert.PlainDot

end
-- ==== Proof.LibColumn.lean ====
/-
  GENERAL LEMMAS: a column of row values read at an index.

  A reduction along the rows of an [a, b] array that keeps the reduced axis leaves an [a] vector cast to the column [a, 1],
  which is then broadcast back along the rows to [a, b]. Both steps only rename the index: the column at (i, 0) is the
  vector at i, and the broadcast at (p, c) is the column at (p, 0).
-/
import Idealize.ShloMosaic.Lib.ValueLayout

namespace Cert.Column

open Idealize.ShloMosaic Idealize.ShloMosaic.ValueIdx

/-- An [a] vector cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.Payload.lean ====
/-
  What the kernel body stores, read at an index.

  The body loads fourteen whole blocks and stores one [4000, 128] block. Read at (p, q), the stored block is the
  message of row p at channel q: two dense layers on the edge attributes, gated by the logistic of an affine function
  of the time stamp, then two dense layers on the gathered row and the gated feature.
-/
import proofs.«414559_j7112465842373_3_alg».proof.Proof.Gen.KernelIdeal.Frame
import proofs.«414559_j7112465842373_3_alg».proof.Proof.Spec
import proofs.«414559_j7112465842373_3_alg».proof.Proof.LibPlainDot
import proofs.«414559_j7112465842373_3_alg».proof.Proof.LibColumn
import Idealize.ShloMosaic.Lib.ValueLayout
import Idealize.ShloMosaic.Lib.Pipeline.Value

noncomputable section

namespace Cert.EdgeConv.Ker

open Idealize.ShloMosaic Idealize.ShloMosaic.ValueIdx Cert.KernelIdeal Cert.KernelIdeal.Gen Cert.EdgeConv

/-- The two contraction records are the plain [M, K] · [K, N] product's. -/
theorem dot64 : dot_S4000x64_S64x128_S4000x128_1_0_0_1_n_n = DotDims.plain 4000 64 128 := rfl
theorem dot128 : dot_S4000x128_S128x128_S4000x128_1_0_0_1_n_n = DotDims.plain 4000 128 128 := rfl

/-- A bias vector [128] read as one row [1, 128] and repeated down 4000 rows: at (p, q) it is the vector at q. -/
theorem biasRow_apply (b : FVec Ideal S128 .f32) (p : Fin 4000) (q : Fin 128) :
    broadcastTo S4000x128 (shapeCast S1x128 b shapeCasts_S128_S1x128) broadcasts_S1x128_S4000x128 (ix2 p q)
      = b (ix1 q) :=
  (broadcastTo_1b_ab_apply _ _ p q).trans (shapeCast_a_1a_apply b _ 0 q)

/-- A product into the zero accumulator over 64 and over 128 contracted entries, at (p, q). -/
theorem mm64_apply (l : FVec Ideal S4000x64 .bf16) (r : FVec Ideal S64x128 .bf16) (p : Fin 4000) (q : Fin 128) :
    matmul dot_S4000x64_S64x128_S4000x128_1_0_0_1_n_n none l r (constant S4000x128 .f32 0x00000000#32) (ix2 p q)
      = ∑ k : Fin 64, l (ix2 p k) * r (ix2 k q) := by
  rw [dot64]; exact Cert.PlainDot.matmul_zero_apply none l r p q

theorem mm128_apply (l : FVec Ideal S4000x128 .bf16) (r : FVec Ideal S128x128 .bf16) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  rw [dot128]; exact Cert.PlainDot.matmul_zero_apply none l r p q

/-- The kernel's first layer: the attribute block times We1, plus the bias row, clipped below at zero. -/
theorem hidden_apply (v0 : FVec Ideal S4000x64 .f32) (v2 : FVec Ideal S64x128 .bf16) (v4 : FVec Ideal S128 .f32)
    (p : Fin 4000) (i : Fin 128) :
    maximumf (addf (matmul dot_S4000x64_S64x128_S4000x128_1_0_0_1_n_n none (truncf .bf16 v0 bitsLt_bf16_f32)
          (shapeCast S64x128 v2 shapeCasts_S64x128_S64x128) (constant S4000x128 .f32 0x00000000#32))
        (broadcastTo S4000x128 (shapeCast S1x128 v4 shapeCasts_S128_S1x128) broadcasts_S1x128_S4000x128))
      (broadcast S4000x128 (Scalar.ofBits .f32 0x00000000#32)) (ix2 p i)
      = hidden v0 v2 v4 p i := by
  show max (matmul dot_S4000x64_S64x128_S4000x128_1_0_0_1_n_n none (truncf .bf16 v0 bitsLt_bf16_f32)
          (shapeCast S64x128 v2 shapeCasts_S64x128_S64x128) (constant S4000x128 .f32 0x00000000#32) (ix2 p i)
        + broadcastTo S4000x128 (shapeCast S1x128 v4 shapeCasts_S128_S1x128) broadcasts_S1x128_S4000x128 (ix2 p i))
      (Ideal.ofBits .f32 0x00000000#32) = _
  rw [mm64_apply, biasRow_apply, Ideal.ofBits_zero_f32, shapeCast_self]
  rfl

/-- The time gate: the stamp column spread along the row times the weight row spread down the rows, plus the bias
    row, through the logistic. -/
theorem gate_apply (v19 : FVec Ideal S4000x1 .f32) (v21 : FVec Ideal S1x128 .f32) (v22 : FVec Ideal S128 .f32)
    (p : Fin 4000) (j : Fin 128) :
    logistic (addf (mulf (broadcastTo S4000x128 (shapeCast S4000x1 v19 shapeCasts_S4000x1_S4000x1) broadcasts_S4000x1_S4000x128)
          (broadcastTo S4000x128 v21 broadcasts_S1x128_S4000x128))
        (broadcastTo S4000x128 (shapeCast S1x128 v22 shapeCasts_S128_S1x128) broadcasts_S1x128_S4000x128)) (ix2 p j)
      = gate v19 v21 v22 p j := by
  show Ideal.logistic (broadcastTo S4000x128 (shapeCast S4000x1 v19 shapeCasts_S4000x1_S4000x1) broadcasts_S4000x1_S4000x128 (ix2 p j)
        * broadcastTo S4000x128 v21 broadcasts_S1x128_S4000x128 (ix2 p j)
      + broadcastTo S4000x128 (shapeCast S1x128 v22 shapeCasts_S128_S1x128) broadcasts_S1x128_S4000x128 (ix2 p j)) = _
  rw [Cert.Column.broadcastTo_a1_ab_apply, broadcastTo_1b_ab_apply, biasRow_apply, shapeCast_self]
  rfl

/-- The gated edge feature as the kernel forms it: the clipped first layer times We2, plus the bias row, times the
    gate; the roundings to the narrow type are the identity on the extended reals. -/
theorem pay3_apply (v0 : FVec Ideal S4000x64 .f32) (v2 : FVec Ideal S64x128 .bf16) (v4 : FVec Ideal S128 .f32)
    (v11 : FVec Ideal S128x128 .bf16) (v13 : FVec Ideal S128 .f32) (v19 : FVec Ideal S4000x1 .f32)
    (v21 : FVec Ideal S1x128 .f32) (v22 : FVec Ideal S128 .f32) (p : Fin 4000) (j : Fin 128) :
    k0_pay3 (F := Ideal) v0 v2 v4 v11 v13 v19 v21 v22 (ix2 p j) = feature v0 v19 v2 v4 v11 v13 v21 v22 p j := by
  show (matmul dot_S4000x128_S128x128_S4000x128_1_0_0_1_n_n none
          (truncf .bf16 (maximumf (addf (matmul dot_S4000x64_S64x128_S4000x128_1_0_0_1_n_n none
                (truncf .bf16 v0 bitsLt_bf16_f32) (shapeCast S64x128 v2 shapeCasts_S64x128_S64x128)
                (constant S4000x128 .f32 0x00000000#32))
              (broadcastTo S4000x128 (shapeCast S1x128 v4 shapeCasts_S128_S1x128) broadcasts_S1x128_S4000x128))
            (broadcast S4000x128 (Scalar.ofBits .f32 0x00000000#32))) bitsLt_bf16_f32)
          (shapeCast S128x128 v11 shapeCasts_S128x128_S128x128) (constant S4000x128 .f32 0x00000000#32) (ix2 p j)
        + broadcastTo S4000x128 (shapeCast S1x128 v13 shapeCasts_S128_S1x128) broadcasts_S1x128_S4000x128 (ix2 p j))
      * logistic (F := Ideal) (φ := .f32) (addf (mulf (broadcastTo S4000x128 (shapeCast S4000x1 v19 shapeCasts_S4000x1_S4000x1) broadcasts_S4000x1_S4000x128)
          (broadcastTo S4000x128 v21 broadcasts_S1x128_S4000x128))
        (broadcastTo S4000x128 (shapeCast S1x128 v22 shapeCasts_S128_S1x128) broadcasts_S1x128_S4000x128)) (ix2 p j) = _
  rw [mm128_apply, biasRow_apply, gate_apply, shapeCast_self v11]
  unfold feature
  refine congrArg (fun x => x * gate v19 v21 v22 p j) (congrArg (fun x => x + v13 (ix1 j)) (Finset.sum_congr rfl fun i _ => ?_))
  exact congrArg (fun x => x * v11 (ix2 i j)) (hidden_apply v0 v2 v4 p i)

/-- The two identity casts among the payloads. -/
theorem pay2_eq (v31 : FVec Ideal S4000x128 .bf16) : k0_pay2 (F := Ideal) v31 = v31 := shapeCast_self v31 _
theorem pay4_eq (v34 : FVec Ideal S128x128 .bf16) : k0_pay4 (F := Ideal) v34 = v34 := shapeCast_self v34 _

/-- The stored block given the gathered block g and the feature block f: g times the upper half of the node
    encoder's first weight plus f times its lower half, plus the bias row, clipped below at zero, times the second
    weight, plus its bias row. -/
theorem pay1_apply (g f : FVec Ideal S4000x128 .bf16) (Wa Wb : FVec Ideal S128x128 .bf16) (bn1 : FVec Ideal S128 .f32)
    (Wn2 : FVec Ideal S128x128 .bf16) (bn2 : FVec Ideal S128 .f32) (p : Fin 4000) (q : Fin 128) :
    k0_pay1 (F := Ideal) g f Wa Wb bn1 Wn2 bn2 (ix2 p q)
      = (∑ k : Fin 128, nodeHidden g (fun e j => f (ix2 e j)) Wa Wb bn1 p k * Wn2 (ix2 k q)) + bn2 (ix1 q) := by
  show matmul dot_S4000x128_S128x128_S4000x128_1_0_0_1_n_n none
        (truncf .bf16 (maximumf (addf (addf
              (matmul dot_S4000x128_S128x128_S4000x128_1_0_0_1_n_n none g Wa (constant S4000x128 .f32 0x00000000#32))
              (matmul dot_S4000x128_S128x128_S4000x128_1_0_0_1_n_n none f
                (shapeCast S128x128 Wb shapeCasts_S128x128_S128x128) (constant S4000x128 .f32 0x00000000#32)))
            (broadcastTo S4000x128 (shapeCast S1x128 bn1 shapeCasts_S128_S1x128) broadcasts_S1x128_S4000x128))
          (broadcast S4000x128 (Scalar.ofBits .f32 0x00000000#32))) bitsLt_bf16_f32)
        (shapeCast S128x128 Wn2 shapeCasts_S128x128_S128x128) (constant S4000x128 .f32 0x00000000#32) (ix2 p q)
      + broadcastTo S4000x128 (shapeCast S1x128 bn2 shapeCasts_S128_S1x128) broadcasts_S1x128_S4000x128 (ix2 p q) = _
  rw [mm128_apply, biasRow_apply, shapeCast_self Wn2]
  refine congrArg (fun x => x + bn2 (ix1 q)) (Finset.sum_congr rfl fun k _ => congrArg (fun x => x * Wn2 (ix2 k q)) ?_)
  show max ((matmul dot_S4000x128_S128x128_S4000x128_1_0_0_1_n_n none g Wa (constant S4000x128 .f32 0x00000000#32) (ix2 p k)
          + matmul dot_S4000x128_S128x128_S4000x128_1_0_0_1_n_n none f
              (shapeCast S128x128 Wb shapeCasts_S128x128_S128x128) (constant S4000x128 .f32 0x00000000#32) (ix2 p k))
        + broadcastTo S4000x128 (shapeCast S1x128 bn1 shapeCasts_S128_S1x128) broadcasts_S1x128_S4000x128 (ix2 p k))
      (Ideal.ofBits .f32 0x00000000#32) = _
  rw [mm128_apply, mm128_apply, biasRow_apply, Ideal.ofBits_zero_f32, shapeCast_self Wb]
  rfl

/-- The block the body stores, at (p, q), is the message of row p at channel q. -/
theorem out_apply (x0 : Vec Ideal S4000x64 .f32) (x1 : Vec Ideal S4000x1 .f32) (x2 : Vec Ideal S4000x128 .bf16)
    (x3 : Vec Ideal S64x128 .bf16) (x4 : Vec Ideal S128 .f32) (x5 : Vec Ideal S128x128 .bf16) (x6 : Vec Ideal S128 .f32)
    (x7 : Vec Ideal S1x128 .f32) (x8 : Vec Ideal S128 .f32) (x9 : Vec Ideal S128x128 .bf16) (x10 : Vec Ideal S128x128 .bf16)
    (x11 : Vec Ideal S128 .f32) (x12 : Vec Ideal S128x128 .bf16) (x13 : Vec Ideal S128 .f32) (p : Fin 4000) (q : Fin 128) :
    out0_14 (F := Ideal) x0 x1 x2 x3 x4 x5 x6 x7 x8 x9 x10 x11 x12 x13 (ix2 p q)
      = message x0 x1 x2 x3 x4 x5 x6 x7 x8 x9 x10 x11 x12 x13 p q := by
  have hz : (![0, 0] : Fin 2 → Nat) = fun _ => 0 := funext fun a => by
    match a with
    | ⟨0, _⟩ => rfl
    | ⟨1, _⟩ => rfl
  have hz1 : (![0] : Fin 1 → Nat) = fun _ => 0 := funext fun a => by
    match a with
    | ⟨0, _⟩ => rfl
  unfold out0_14
  rw [View.canon_unit_zero hz]
  simp only [View.ld_unit_zero (S := S4000x64) hz, View.ld_unit_zero (S := S64x128) hz,
    View.ld_unit_zero (S := S128) hz1, View.ld_unit_zero (S := S128x128) hz, View.ld_unit_zero (S := S4000x1) hz,
    View.ld_unit_zero (S := S1x128) hz, View.ld_unit_zero (S := S4000x128) hz]
  rw [pay2_eq, pay4_eq, pay1_apply]
  unfold message nodeHidden
  simp only [pay3_apply]

end Cert.EdgeConv.Ker

end
-- ==== Proof.MessageArray.lean ====
/-
  The message array after the launch.

  Point t's stored block is the messages of its 4000 rows computed from the blocks the windows hold; those blocks are rows
  4000·t … 4000·t + 3999 of the per-edge arrays and the whole weight arrays, and a row's message reads that row only. So the
  block written back at point t is rows 4000·t … of the messages computed from the whole arrays, and since the blocks tile
  the array it ends holding exactly those messages.
-/
import proofs.«414559_j7112465842373_3_alg».proof.Proof.Blocks
import proofs.«414559_j7112465842373_3_alg».proof.Proof.Payload

set_option maxRecDepth 16384

noncomputable section

namespace Cert.EdgeConv

open Idealize.ShloMosaic Idealize.ShloMosaic.ValueIdx

/-- Two sets of tables that agree on one row of the per-edge tables, and whose weights are equal, give that row the
    same message. -/
theorem message_congr {R R' : ℕ} (ea : Mat R 64) (ts : Mat R 1) (xg : Mat R 128) (ea' : Mat R' 64) (ts' : Mat R' 1)
    (xg' : Mat R' 128) (We1 We1' : Mat 64 128) (be1 be1' : Vc 128) (We2 We2' : Mat 128 128) (be2 be2' : Vc 128)
    (Wt Wt' : Mat 1 128) (bt bt' : Vc 128) (Wa Wa' Wb Wb' : Mat 128 128) (bn1 bn1' : Vc 128) (Wn2 Wn2' : Mat 128 128)
    (bn2 bn2' : Vc 128) (p : Fin R) (e : Fin R') (c : Fin 128)
    (hea : ∀ l : Fin 64, ea (ix2 p l) = ea' (ix2 e l)) (hts : ts (ix2 p (0 : Fin 1)) = ts' (ix2 e (0 : Fin 1)))
    (hxg : ∀ j : Fin 128, xg (ix2 p j) = xg' (ix2 e j))
    (h1 : We1 = We1') (h2 : be1 = be1') (h3 : We2 = We2') (h4 : be2 = be2') (h5 : Wt = Wt') (h6 : bt = bt')
    (h7 : Wa = Wa') (h8 : Wb = Wb') (h9 : bn1 = bn1') (h10 : Wn2 = Wn2') (h11 : bn2 = bn2') :
    message ea ts xg We1 be1 We2 be2 Wt bt Wa Wb bn1 Wn2 bn2 p c
      = message ea' ts' xg' We1' be1' We2' be2' Wt' bt' Wa' Wb' bn1' Wn2' bn2' e c := by
  subst h1 h2 h3 h4 h5 h6 h7 h8 h9 h10 h11
  exact message_congr_row ea ts xg ea' ts' xg' We1 be1 We2 be2 Wt bt Wa Wb bn1 Wn2 bn2 p e c hea hts hxg

end Cert.EdgeConv

namespace Cert.EdgeConv.Kernel

open Idealize.ShloMosaic Idealize.ShloMosaic.TcCoe Idealize.ShloMosaic.ValueIdx
open Idealize.SL.Sem Cert.KernelIdeal Cert.KernelIdeal.Gen Cert.EdgeConv

variable (m : (ℓ : Loc nD τ sig) → Buf (Elt Ideal) ℓ)

/-- The messages of all edges, from the arrays as the launch finds them. -/
def msgArr (c : Dev nD) : S500000x128.Idx → EReal :=
  messages (R := 500000) (V m c main_arg2) (V m c main_v6) (V m c main_v5) (V m c main_v7) (V m c main_arg5)
    (V m c main_v8) (V m c main_arg7) (V m c main_arg8) (V m c main_arg9) (V m c main_v10) (V m c main_v12)
    (V m c main_arg11) (V m c main_v13) (V m c main_arg13)

/-- What point t writes back is block t of the message array. -/
theorem flushed_eq (c : Dev nD) (t : Fin cfg0.N) :
    (dats m 0 c).flushed 14 t = ((cfg0.win 14).blk t).view.read (Elt Ideal) (msgArr m c) := by
  show (cfg0.win 14).cut (grid0.coords t) ((dats m 0 c).after 14 t) = _
  rw [after0_14]
  funext y
  obtain ⟨p, q, rfl⟩ : ∃ (p : Fin 4000) (q : Fin 128), y = ix2 p q := ⟨y 0, y 1, eq_ix2 y⟩
  show out0_14 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (ix2 p q)
    = msgArr m c (((cfg0.win 14).blk t).view.emb (ix2 p q))
  rw [Blocks.emb14]
  refine (Ker.out_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) p q).trans ?_
  exact message_congr (iblk m c 0 t) (iblk m c 1 t) (iblk m c 2 t) (V m c main_arg2) (V m c main_v6) (V m c main_v5)
    (iblk m c 3 t) (V m c main_v7) (iblk m c 4 t) (V m c main_arg5) (iblk m c 5 t) (V m c main_v8)
    (iblk m c 6 t) (V m c main_arg7) (iblk m c 7 t) (V m c main_arg8) (iblk m c 8 t) (V m c main_arg9)
    (iblk m c 9 t) (V m c main_v10) (iblk m c 10 t) (V m c main_v12) (iblk m c 11 t) (V m c main_arg11)
    (iblk m c 12 t) (V m c main_v13) (iblk m c 13 t) (V m c main_arg13) p (Blocks.rowAt t p) q
    (fun l => Blocks.blk0_apply m c t p l) (Blocks.blk1_apply m c t p (0 : Fin 1)) (fun j => Blocks.blk2_apply m c t p j)
    (Blocks.blk3_eq m c t) (Blocks.blk4_eq m c t) (Blocks.blk5_eq m c t) (Blocks.blk6_eq m c t) (Blocks.blk7_eq m c t)
    (Blocks.blk8_eq m c t) (Blocks.blk9_eq m c t) (Blocks.blk10_eq m c t) (Blocks.blk11_eq m c t) (Blocks.blk12_eq m c t)
    (Blocks.blk13_eq m c t)

/-- The message array ends holding the messages of all edges. -/
theorem final (c : Dev nD) : (dats m 0 c).arrAt 14 cfg0.N = msgArr m c :=
  (dats m 0 c).arrAt_eq_of_cover 14 (msgArr m c) (fun t _ => flushed_eq m c t) Blocks.cover14

end Cert.EdgeConv.Kernel

end
-- ==== Proof.LibRowGather.lean ====
/-
  `stablehlo.gather` as jnp's `x[idx]` lowers it for a table `x : [N, D]` and a list of M row indices carried as a column
  `[M, 1]`: offset axis 1, collapsed slice axis 0, start index map [0], index vector axis 1, slices of one whole row.
  Result element (i, k) is the table's element (r, k) at the row r the start index `idx[i, 0]` names, read as a signed
  integer and clamped into [0, N − 1].
-/
import Idealize.ShloMosaic.Lib.ValueIdx

noncomputable section

namespace Cert.LibRowGather

open Idealize.ShloMosaic Idealize.ShloMosaic.ValueIdx

variable {α : Type}

/-- Those dimension numbers; their conditions `wf` are decided on a program's literal shapes. -/
abbrev rowDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE GATHER READ AT (i, k): the table at the clamped start row and column k. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (i : Fin M) (k : Fin D) :
    Host.gather (rowDims N D M wf) x idx (ix2 i k)
      = x (ix2 ⟨min (idx (ix2 i (0 : Fin 1))).toInt.toNat (N - 1), by omega⟩ k) := by
  unfold Host.gather
  congr 1
  -- axis 0 is collapsed (no offset coordinate) and carries the clamped start row
  have h0 : (rowDims N D M wf).start (ix2 i k) idx (0 : Fin 2) + (rowDims N D M wf).batchCoord (ix2 i k) (0 : Fin 2)
      + (rowDims N D M wf).offCoord (ix2 i k) (0 : Fin 2) = min (idx (ix2 i (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 i k) ⟨List.idxOf (0 : Fin 2) (rowDims N D M wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  -- axis 1 is the offset axis: no start, the result's own column
  have h1 : (rowDims N D M wf).start (ix2 i k) idx (1 : Fin 2) + (rowDims N D M wf).batchCoord (ix2 i k) (1 : Fin 2)
      + (rowDims N D M wf).offCoord (ix2 i k) (1 : Fin 2) = k.val := by
    rw [GatherDims.batchCoord_eq_zero _ _ _ List.not_mem_nil]
    unfold GatherDims.start
    rw [dif_neg (show (1 : Fin 2) ∉ (rowDims N D M wf).startIndexMap from
      fun h => Nat.one_ne_zero (congrArg Fin.val (List.mem_singleton.mp h)))]
    simp only [Nat.add_zero, Nat.zero_add]
    unfold GatherDims.offCoord
    rw [dif_pos (show (1 : Fin 2) ∈ (rowDims N D M wf).sKept from (GatherDims.mem_sKept _ _).mpr
      ⟨fun h => Nat.one_ne_zero (congrArg Fin.val (List.mem_singleton.mp h)), List.not_mem_nil⟩)]
    rfl
  funext a
  refine Fin.ext ?_
  match a with
  | ⟨0, _⟩ => exact h0
  | ⟨1, _⟩ => exact h1

end Cert.LibRowGather

end
-- ==== Proof.HostSide.lean ====
/-
  What the kernel's program computes on the host before the launch: the arrays the pallas_call's windows stage, as
  functions of the program's arguments.

  The weights are cast to bf16 (the identity on extended reals) and Wn1 is cut into its upper and lower 128 rows; the time
  stamps become a column; and the node table is gathered at the source indices by a take that wraps a negative index,
  clamps the start row and then overwrites with zero every row whose index was out of range. Where every index names a
  node the wrap and the clamp change nothing and no row is overwritten: the gathered table is x[row(e), ·].
-/
import proofs.«414559_j7112465842373_3_alg».proof.Proof.Gen.KernelIdeal.Frame
import proofs.«414559_j7112465842373_3_alg».proof.Proof.Spec
import proofs.«414559_j7112465842373_3_alg».proof.Proof.LibRowGather
import Idealize.ShloMosaic.Lib.StableHlo.Run
import Idealize.ShloMosaic.Lib.StableHlo.Predicate
import Idealize.ShloMosaic.Lib.Pipeline.Value
import Idealize.ShloMosaic.Lib.ValueLayout

noncomputable section

namespace Cert.EdgeConv.Host

open Idealize.ShloMosaic Idealize.ShloMosaic.TcCoe Idealize.ShloMosaic.ValueIdx Idealize.ShloMosaic.StableHlo
open Idealize.SL.Sem Cert.KernelIdeal Cert.KernelIdeal.Gen Cert.EdgeConv

/-! ## The index table's two rows as vectors over the edges -/

/-- The source indices. -/
def srcVec (ei : IVec S2x500000 32) : IVec S500000 32 :=
  shapeCast S500000 (extractStridedSlice S1x500000 ![0, 0] ei slices_S2x500000_S1x500000_0_0) shapeCasts_S1x500000_S500000
/-- The destination indices. -/
def dstVec (ei : IVec S2x500000 32) : IVec S500000 32 :=
  shapeCast S500000 (extractStridedSlice S1x500000 ![1, 0] ei slices_S2x500000_S1x500000_1_0) shapeCasts_S1x500000_S500000

theorem srcVec_apply (ei : IVec S2x500000 32) (e : Fin 500000) : srcVec ei (ix1 e) = ei (ix2 (0 : Fin 2) e) := by
  unfold srcVec
  refine (shapeCast_apply _ shapeCasts_S1x500000_S500000 (ix1 e) (ix2 (0 : Fin 1) e) ?_).trans ?_
  · rw [Shape.rowMajor_val_two, Shape.rowMajor_val_one]; show 0 * 500000 + e.val = e.val; omega
  · exact extractStridedSlice_apply ![0, 0] ei slices_S2x500000_S1x500000_0_0 (ix2 (0 : Fin 1) e) (ix2 (0 : Fin 2) e)
      (fun a => match a with
        | ⟨0, _⟩ => by show (0 : ℕ) = 0 + 0; rfl
        | ⟨1, _⟩ => by show e.val = 0 + e.val; omega)

theorem dstVec_apply (ei : IVec S2x500000 32) (e : Fin 500000) : dstVec ei (ix1 e) = ei (ix2 (1 : Fin 2) e) := by
  unfold dstVec
  refine (shapeCast_apply _ shapeCasts_S1x500000_S500000 (ix1 e) (ix2 (0 : Fin 1) e) ?_).trans ?_
  · rw [Shape.rowMajor_val_two, Shape.rowMajor_val_one]; show 0 * 500000 + e.val = e.val; omega
  · exact extractStridedSlice_apply ![1, 0] ei slices_S2x500000_S1x500000_1_0 (ix2 (0 : Fin 1) e) (ix2 (1 : Fin 2) e)
      (fun a => match a with
        | ⟨0, _⟩ => by show (1 : ℕ) = 1 + 0; rfl
        | ⟨1, _⟩ => by show e.val = 0 + e.val; omega)

/-! ## numpy's wrap of a negative index, and a vector as a column -/

/-- v + 100000 where v is negative, v elsewhere. -/
def wrapNeg (v : IVec S500000 32) : IVec S500000 32 :=
  select (cmpi .slt v (broadcastInDim S500000 ![] bcast_S_S500000 (constantI S_ 32 0#32)))
    (addi v (broadcastInDim S500000 ![] bcast_S_S500000 (constantI S_ 32 100000#32))) v

/-- A word that names a node is not negative: the wrap keeps it. -/
theorem wrapNeg_apply (v : IVec S500000 32) (i : S500000.Idx) (h : (v i).toNat < 100000) : wrapNeg v i = v i := by
  unfold wrapNeg
  rw [select_apply]
  have hz : (broadcastInDim S500000 ![] bcast_S_S500000 (constantI S_ 32 0#32) : IVec S500000 32) i = 0#32 := rfl
  have hn : cmpi .slt v (broadcastInDim S500000 ![] bcast_S_S500000 (constantI S_ 32 0#32)) i ≠ 1#1 := by
    show IntOp.cmpi .slt (v i) _ ≠ 1#1
    rw [hz]
    intro hc
    have := (StableHlo.Predicate.slt_iff_toNat (a := v i) (b := 0#32) (by omega) (by decide)).mp hc
    simp at this
  unfold Scalar.select
  exact if_neg hn

/-- The [500000, 1] column of a vector. -/
def asCol (v : IVec S500000 32) : IVec S500000x1 32 := broadcastInDim S500000x1 ![0] bcast_S500000_S500000x1_0 v

theorem asCol_apply (v : IVec S500000 32) (e : Fin 500000) (u : Fin 1) : asCol v (ix2 e u) = v (ix1 e) := by
  unfold asCol
  exact broadcastInDim_apply _ bcast_S500000_S500000x1_0 v (ix2 e u) (ix1 e) (fun a => match a with
    | ⟨0, _⟩ => by show e.val = if (500000 : Nat) = 1 then 0 else e.val; rw [if_neg (by decide)])

/-! ## The take that fills out-of-range rows with zero -/

/-- A left fold of bitwise-and over words that are all one, from one, is one. -/
theorem foldl_andi_one {ι : Type} (g : ι → BitVec 1) (l : List ι) (hg : ∀ n ∈ l, g n = 1#1) :
    l.foldl (fun r n => IntOp.andi r (g n)) 1#1 = 1#1 := by
  induction l with
  | nil => rfl
  | cons a l ih =>
    rw [List.foldl_cons, hg a (List.mem_cons.mpr (Or.inl rfl))]
    have h1 : IntOp.andi 1#1 1#1 = 1#1 := by decide
    rw [h1]
    exact ih (fun n hn => hg n (List.mem_cons.mpr (Or.inr hn)))

/-- An and-reduction of a mask that is one everywhere, from one, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_one (fun n => x (s.rowMajor.symm n)) _ (fun n _ => hx _)

/-- The take's in-range mask of a column of start rows: 0 ≤ row ≤ 99999, and-reduced along the column's unit axis. -/
def fillMask (idx : IVec S500000x1 32) : IVec S500000 1 :=
  Host.reduce IntOp.andi
    (andi (cmpi .sge idx (broadcastInDim S500000x1 ![] bcast_S_S500000x1 (constantI S_ 32 0#32)))
      (cmpi .sle idx (broadcastInDim S500000x1 ![0, 1] bcast_S1x1_S500000x1_0_1
        (broadcastInDim S1x1 ![1] bcast_S1_S1x1_1 (constantI S1 32 99999#32)))))
    (constantI S_ 1 1#1) reducesTo_S500000x1_S500000_d1 h_S_

/-- Where every start row names a node the mask is one. -/
theorem fillMask_one (idx : IVec S500000x1 32) (h : ∀ i, (idx i).toNat < 100000) (j : S500000.Idx) :
    fillMask idx j = 1#1 := by
  unfold fillMask
  refine reduce_andi_ones _ _ _ _ (fun i => ?_) rfl j
  show IntOp.andi (IntOp.cmpi .sge (idx i) 0#32) (IntOp.cmpi .sle (idx i) 99999#32) = 1#1
  have hi := h i
  rw [IntOp.andi_eq_one]
  exact ⟨(StableHlo.Predicate.sge_iff_toNat (a := idx i) (b := 0#32) (by omega) (by decide)).mpr (by simp),
    (StableHlo.Predicate.sle_iff_toNat (a := idx i) (b := 99999#32) (by omega) (by decide)).mpr
      (by have : (99999#32 : BitVec 32).toNat = 99999 := by decide
          omega)⟩

/-- jnp.take(x_bf16, row, axis=0, mode="fill", fill_value=0): wrap, gather, zero where out of range. -/
def takeFill (x : FVec Ideal S100000x128 .f32) (ei : IVec S2x500000 32) : FVec Ideal S500000x128 .bf16 :=
  select (broadcastInDim S500000x128 ![0] bcast_S500000_S500000x128_0 (fillMask (asCol (wrapNeg (srcVec ei)))))
    (Host.gather gather_S100000x128_S500000x1_S500000x128_1_0_n_n_0_1_1128 (truncf .bf16 x bitsLt_bf16_f32)
      (asCol (wrapNeg (srcVec ei))))
    (broadcastInDim S500000x128 ![] bcast_S_S500000x128 (constant S_ .bf16 0x0000#16))

/-- The generated gather record is the row gather's. -/
theorem gatherDims_eq : gather_S100000x128_S500000x1_S500000x128_1_0_n_n_0_1_1128
    = Cert.LibRowGather.rowDims 100000 128 500000 gather_S100000x128_S500000x1_S500000x128_1_0_n_n_0_1_1128_wf := rfl

/-- Where every index names a node the take is the table of gathered rows. -/
theorem takeFill_apply (x : FVec Ideal S100000x128 .f32) (ei : IVec S2x500000 32) (hr : InRange ei)
    (e : Fin 500000) (j : Fin 128) : takeFill x ei (ix2 e j) = gathered x ei (ix2 e j) := by
  have hcol : ∀ (e' : Fin 500000) (u : Fin 1), asCol (wrapNeg (srcVec ei)) (ix2 e' u) = ei (ix2 (0 : Fin 2) e') :=
    fun e' u => by
      rw [asCol_apply, wrapNeg_apply _ _ (by rw [srcVec_apply]; exact hr 0 e'), srcVec_apply]
  have hlt : ∀ i : S500000x1.Idx, (asCol (wrapNeg (srcVec ei)) i).toNat < 100000 := fun i => by
    obtain ⟨e', u, rfl⟩ : ∃ (e' : Fin 500000) (u : Fin 1), i = ix2 e' u := ⟨i 0, i 1, eq_ix2 i⟩
    rw [hcol e' u]; exact hr 0 e'
  unfold takeFill
  rw [select_apply]
  have hm : (broadcastInDim S500000x128 ![0] bcast_S500000_S500000x128_0 (fillMask (asCol (wrapNeg (srcVec ei)))) :
      IVec S500000x128 1) (ix2 e j) = 1#1 := by
    refine (broadcastInDim_apply _ bcast_S500000_S500000x128_0 _ (ix2 e j) (ix1 e) (fun a => match a with
      | ⟨0, _⟩ => by show e.val = if (500000 : Nat) = 1 then 0 else e.val; rw [if_neg (by decide)])).trans ?_
    exact fillMask_one _ hlt _
  rw [hm]
  show Host.gather gather_S100000x128_S500000x1_S500000x128_1_0_n_n_0_1_1128 (truncf .bf16 x bitsLt_bf16_f32)
      (asCol (wrapNeg (srcVec ei))) (ix2 e j) = _
  rw [gatherDims_eq, Cert.LibRowGather.gather_rows_apply (by decide)]
  have hw := hcol e (0 : Fin 1)
  have hwl := hr 0 e
  have hint : (asCol (wrapNeg (srcVec ei)) (ix2 e (0 : Fin 1))).toInt.toNat = (ei (ix2 (0 : Fin 2) e)).toNat := by
    rw [hw]
    show (ei (ix2 (0 : Fin 2) e)).toInt.toNat = _
    rw [StableHlo.Predicate.toInt_eq_toNat_of_lt (by omega)]
    exact Int.toNat_natCast _
  unfold gathered
  refine congrArg (fun r : Fin 100000 => x (ix2 r j)) (Fin.ext ?_)
  show min (asCol (wrapNeg (srcVec ei)) (ix2 e (0 : Fin 1))).toInt.toNat (100000 - 1)
    = min (ei (ix2 (0 : Fin 2) e)).toNat 99999
  rw [hint]

end Cert.EdgeConv.Host

end
-- ==== Proof.Staged.lean ====
/-
  The arrays the launch stages, as the launch finds them, in terms of the program's arguments: the host operations
  before the launch, run.
-/
import proofs.«414559_j7112465842373_3_alg».proof.Proof.HostSide

noncomputable section

namespace Cert.EdgeConv.Host

open Idealize.ShloMosaic Idealize.ShloMosaic.TcCoe Idealize.ShloMosaic.ValueIdx Idealize.ShloMosaic.StableHlo
open Idealize.SL.Sem Cert.KernelIdeal Cert.KernelIdeal.Gen Cert.EdgeConv

variable (m : (ℓ : Loc nD τ sig) → Buf (Elt Ideal) ℓ)

/-- The contents of one buffer after the host operations before the launch: each operation's result at its own buffer. -/
local macro "host_read" : tactic =>
  `(tactic| (dsimp only [Gen.V, Gen.V0]
             simp only [Gen.hostOps0, Gen.hostOps0_1, Gen.hostOps0_2, List.flatten_cons, List.flatten_nil, List.append_nil,
               List.cons_append, List.nil_append]
             after_results))

/-- The time stamps as a column. -/
theorem ts_eq (c : Dev nD) : (V m c main_v6 : S500000x1.Idx → EReal) = colOf (m ((c : Thread nD τ).loc main_arg3)) := by
  have h : (V m c main_v6 : S500000x1.Idx → EReal)
      = broadcastInDim S500000x1 ![0] bcast_S500000_S500000x1_0 (m ((c : Thread nD τ).loc main_arg3)) := by
    host_read
  rw [h]
  funext i
  obtain ⟨e, u, rfl⟩ : ∃ (e : Fin 500000) (u : Fin 1), i = ix2 e u := ⟨i 0, i 1, eq_ix2 i⟩
  exact broadcastInDim_apply _ bcast_S500000_S500000x1_0 _ (ix2 e u) (ix1 e) (fun a => match a with
    | ⟨0, _⟩ => by show e.val = if (500000 : Nat) = 1 then 0 else e.val; rw [if_neg (by decide)])

/-- The bf16 casts of We1, We2 and Wn2 hold the weights' own values. -/
theorem we1_eq (c : Dev nD) : (V m c main_v7 : S64x128.Idx → EReal) = m ((c : Thread nD τ).loc main_arg4) := by
  host_read; rfl
theorem we2_eq (c : Dev nD) : (V m c main_v8 : S128x128.Idx → EReal) = m ((c : Thread nD τ).loc main_arg6) := by
  host_read; rfl
theorem wn2_eq (c : Dev nD) : (V m c main_v13 : S128x128.Idx → EReal) = m ((c : Thread nD τ).loc main_arg12) := by
  host_read; rfl

/-- The upper and the lower half of Wn1. -/
theorem wa_eq (c : Dev nD) : (V m c main_v10 : S128x128.Idx → EReal) = topHalf (m ((c : Thread nD τ).loc main_arg10)) := by
  have h : (V m c main_v10 : S128x128.Idx → EReal)
      = extractStridedSlice S128x128 ![0, 0] (m ((c : Thread nD τ).loc main_arg10)) slices_S256x128_S128x128_0_0 := by
    host_read; rfl
  rw [h]
  funext i
  obtain ⟨a, b, rfl⟩ : ∃ (a : Fin 128) (b : Fin 128), i = ix2 a b := ⟨i 0, i 1, eq_ix2 i⟩
  exact slice2_axis0_apply 0 _ slices_S256x128_S128x128_0_0 a b ⟨a.val, by omega⟩ (by show a.val = 0 + a.val; omega)
theorem wb_eq (c : Dev nD) : (V m c main_v12 : S128x128.Idx → EReal) = botHalf (m ((c : Thread nD τ).loc main_arg10)) := by
  have h : (V m c main_v12 : S128x128.Idx → EReal)
      = extractStridedSlice S128x128 ![128, 0] (m ((c : Thread nD τ).loc main_arg10)) slices_S256x128_S128x128_128_0 := by
    host_read; rfl
  rw [h]
  funext i
  obtain ⟨a, b, rfl⟩ : ∃ (a : Fin 128) (b : Fin 128), i = ix2 a b := ⟨i 0, i 1, eq_ix2 i⟩
  exact slice2_axis0_apply 128 _ slices_S256x128_S128x128_128_0 a b ⟨128 + a.val, by omega⟩ rfl

/-- Contents carried to a buffer's type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

set_option maxHeartbeats 2000000 in
/-- The gathered node rows are the take of the bf16 node table (the node table's own values) at the source indices. -/
theorem xg_eq (c : Dev nD) : (V m c main_v5 : S500000x128.Idx → EReal)
    = takeFill (m ((c : Thread nD τ).loc main_arg0)) (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results_simp
  simp only [ofBuf_toBuf]
  refine eq_of_heq ((cast_heq _ _).trans (heq_of_eq ?_))
  unfold takeFill fillMask asCol wrapNeg srcVec
  rfl

/-- Where every index names a node, the staged node rows are x[row(e), ·]. -/
theorem xg_apply (c : Dev nD) (hr : InRange (m ((c : Thread nD τ).loc main_arg1))) (e : Fin 500000) (j : Fin 128) :
    (V m c main_v5 : S500000x128.Idx → EReal) (ix2 e j)
      = gathered (m ((c : Thread nD τ).loc main_arg0)) (m ((c : Thread nD τ).loc main_arg1)) (ix2 e j) := by
  rw [xg_eq]
  exact takeFill_apply _ _ hr e j

/-- The destination indices, before the launch. -/
theorem dst_eq (c : Dev nD) : (V m c main_v3 : S500000.Idx → BitVec 32) = dstVec (m ((c : Thread nD τ).loc main_arg1)) := by
  host_read; rfl

/-- Where every index names a node, the wrapped destination column is the destination column. -/
theorem dstCol_eq (ei : IVec S2x500000 32) (hr : InRange ei) : asCol (wrapNeg (dstVec ei)) = destCol ei := by
  funext i
  obtain ⟨e, u, rfl⟩ : ∃ (e : Fin 500000) (u : Fin 1), i = ix2 e u := ⟨i 0, i 1, eq_ix2 i⟩
  rw [asCol_apply, wrapNeg_apply _ _ (by rw [dstVec_apply]; exact hr 1 e), dstVec_apply]
  rfl

/-! ## After the launch: the scatter-add of the messages into x -/

set_option maxHeartbeats 2000000 in
/-- The program's result: x with every message added at its edge's (wrapped) destination row. -/
theorem result_eq (c : Dev nD) (G : S500000x128.Idx → EReal) (hG : (dats m 0 c).arrAt 14 cfg0.N = G) :
    (Pipeline.afterTail₀ cfgs (dats m) 0 (V0 m) [hostOps1] c main_v21 : S100000x128.Idx → EReal)
      = Host.scatterAdd (F := Ideal) (φ := .f32) scatter_S100000x128_S500000x1_S500000x128_1_0_0_1
          (m ((c : Thread nD τ).loc main_arg0)) (asCol (wrapNeg (dstVec (m ((c : Thread nD τ).loc main_arg1))))) G := by
  have e14 : Pipeline.withArrays (cfgs 0).spec c (V0 m c) (fun w => (dats m 0 c).arrAt w (cfgs 0).N)
      (Proc.devRef .tc main_v14) = G :=
    (Pipeline.withArrays_arr spec0 launch0.win.arr_inj c _ _ 14).trans hG
  have e0 : Pipeline.withArrays (cfgs 0).spec c (V0 m c) (fun w => (dats m 0 c).arrAt w (cfgs 0).N)
      (Proc.devRef .tc main_arg0) = m ((c : Thread nD τ).loc main_arg0) :=
    (Pipeline.withArrays_of_ne _ c (V0 m c) _ main_arg0
      (by exact (by decide : ∀ w, Pipeline.arrRef spec0 w ≠ main_arg0))).trans (V_main_arg0 m c)
  have e3 : Pipeline.withArrays (cfgs 0).spec c (V0 m c) (fun w => (dats m 0 c).arrAt w (cfgs 0).N)
      (Proc.devRef .tc main_v3) = dstVec (m ((c : Thread nD τ).loc main_arg1)) :=
    (Pipeline.withArrays_of_ne _ c (V0 m c) _ main_v3
      (by exact (by decide : ∀ w, Pipeline.arrRef spec0 w ≠ main_v3))).trans (dst_eq m c)
  unfold Pipeline.afterTail₀
  simp only [hostOps1, List.flatten_cons, List.flatten_nil, List.append_nil, List.cons_append, List.nil_append]
  after_results_simp
  rw [e14, e0, e3]
  rfl

end Cert.EdgeConv.Host

end
-- ==== Proof.KernelRun.lean ====
/-
  The kernel's program, run: its result as a function of its arguments.

  Where every index of the edge table names a node, the program ends with its result buffer holding
    x[n, c] + Σ { message(e)[c] : the edge e ends at node n },
  the messages computed from the arguments (the gathered rows x[row(e), ·], the time stamps as a column, Wn1 cut in
  halves), and with its arguments unchanged.
-/
import proofs.«414559_j7112465842373_3_alg».proof.Proof.MessageArray
import proofs.«414559_j7112465842373_3_alg».proof.Proof.Staged

set_option maxRecDepth 16384

noncomputable section

namespace Cert.EdgeConv.Kernel

open Idealize.ShloMosaic Idealize.ShloMosaic.TcCoe Idealize.ShloMosaic.ValueIdx Idealize.ShloMosaic.StableHlo
open Idealize.SL.Sem Cert.KernelIdeal Cert.KernelIdeal.Gen Cert.EdgeConv

/-- The messages of all edges from the program's arguments. -/
def msgOf (x0 : Mat 100000 128) (x1 : IVec ⟨2, ![2, 500000]⟩ 32) (x2 : Mat 500000 64) (x3 : Vc 500000) (x4 : Mat 64 128)
    (x5 : Vc 128) (x6 : Mat 128 128) (x7 : Vc 128) (x8 : Mat 1 128) (x9 : Vc 128) (x10 : Mat 256 128) (x11 : Vc 128)
    (x12 : Mat 128 128) (x13 : Vc 128) : Mat 500000 128 :=
  messages (R := 500000) x2 (colOf x3) (gathered x0 x1) x4 x5 x6 x7 x8 x9 (topHalf x10) (botHalf x10) x11 x12 x13

variable (m : (ℓ : Loc nD τ sig) → Buf (Elt Ideal) ℓ) (ρ : Dev nD → PrngReg)

/-- The messages of device c's arguments. -/
def msgArgs (c : Dev nD) : Mat 500000 128 :=
  msgOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))

/-- The result: x with the messages added at their destination rows. -/
def resultOf (c : Dev nD) : S100000x128.Idx → EReal :=
  Host.scatterAdd (F := Ideal) (φ := .f32) scatter_S100000x128_S500000x1_S500000x128_1_0_0_1
    (m ((c.tc : Thread nD τ).loc main_arg0)) (destCol (m ((c.tc : Thread nD τ).loc main_arg1))) (msgArgs m c)

/-- The message array the launch leaves is the messages of the arguments. -/
theorem msgArr_eq (c : Dev nD) (hr : InRange (m ((c.tc : Thread nD τ).loc main_arg1))) : msgArr m c = msgArgs m c := by
  funext i
  obtain ⟨e, q, rfl⟩ : ∃ (e : Fin 500000) (q : Fin 128), i = ix2 e q := ⟨i 0, i 1, eq_ix2 i⟩
  show message (V m c main_arg2) (V m c main_v6) (V m c main_v5) (V m c main_v7) (V m c main_arg5) (V m c main_v8)
      (V m c main_arg7) (V m c main_arg8) (V m c main_arg9) (V m c main_v10) (V m c main_v12) (V m c main_arg11)
      (V m c main_v13) (V m c main_arg13) e q
    = message (m ((c.tc : Thread nD τ).loc main_arg2)) (colOf (m ((c.tc : Thread nD τ).loc main_arg3)))
      (gathered (m ((c.tc : Thread nD τ).loc main_arg0)) (m ((c.tc : Thread nD τ).loc main_arg1)))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (topHalf (m ((c.tc : Thread nD τ).loc main_arg10))) (botHalf (m ((c.tc : Thread nD τ).loc main_arg10)))
      (m ((c.tc : Thread nD τ).loc main_arg11)) (m ((c.tc : Thread nD τ).loc main_arg12))
      (m ((c.tc : Thread nD τ).loc main_arg13)) e q
  exact message_congr (V m c main_arg2) (V m c main_v6) (V m c main_v5)
    (m ((c.tc : Thread nD τ).loc main_arg2)) (colOf (m ((c.tc : Thread nD τ).loc main_arg3)))
    (gathered (m ((c.tc : Thread nD τ).loc main_arg0)) (m ((c.tc : Thread nD τ).loc main_arg1)))
    (V m c main_v7) (m ((c.tc : Thread nD τ).loc main_arg4)) (V m c main_arg5) (m ((c.tc : Thread nD τ).loc main_arg5))
    (V m c main_v8) (m ((c.tc : Thread nD τ).loc main_arg6)) (V m c main_arg7) (m ((c.tc : Thread nD τ).loc main_arg7))
    (V m c main_arg8) (m ((c.tc : Thread nD τ).loc main_arg8)) (V m c main_arg9) (m ((c.tc : Thread nD τ).loc main_arg9))
    (V m c main_v10) (topHalf (m ((c.tc : Thread nD τ).loc main_arg10)))
    (V m c main_v12) (botHalf (m ((c.tc : Thread nD τ).loc main_arg10)))
    (V m c main_arg11) (m ((c.tc : Thread nD τ).loc main_arg11)) (V m c main_v13) (m ((c.tc : Thread nD τ).loc main_arg12))
    (V m c main_arg13) (m ((c.tc : Thread nD τ).loc main_arg13)) e e q
    (fun l => congrFun (V_main_arg2 m c) _) (congrFun (Host.ts_eq m c) _) (fun j => Host.xg_apply m c hr e j)
    (Host.we1_eq m c) (V_main_arg5 m c) (Host.we2_eq m c) (V_main_arg7 m c) (V_main_arg8 m c) (V_main_arg9 m c)
    (Host.wa_eq m c) (Host.wb_eq m c) (V_main_arg11 m c) (Host.wn2_eq m c) (V_main_arg13 m c)

/-- THE RUN: under the range hypothesis every weakly fair execution terminates with the result buffer at resultOf and
    the arguments as launched. -/
theorem run (hr : ∀ c : Dev nD, InRange (m ((c.tc : Thread nD τ).loc main_arg1))) :
    θ_run defs (onTc (τ := τ) (main (F := Ideal))) ⟨m, fun _ => 0, ρ⟩ (fun r => ∀ c : Dev nD,
      r.2.mem ((c.tc : Thread nD τ).loc main_v21) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      ((h c).2 main_v21 (Pipeline.mem_restRefs_of main_v21 (by decide) (by decide))).trans
        ((Host.result_eq m c _ (final m c)).trans (by
          rw [msgArr_eq m c (hr c), Host.dstCol_eq _ (hr c)]
          rfl)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans ((((dats m) 0 c).arrAt_in 0 rfl _).trans ((A_eq m c 0).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 4).trans ((((dats m) 0 c).arrAt_in 4 rfl _).trans ((A_eq m c 4).trans (V_main_arg5 m c))),
      (((h c).2 main_arg6 (Pipeline.mem_restRefs_of main_arg6 (by decide) (by decide))).trans (W_main_arg6 m (dats m) c)),
      ((h c).1 6).trans ((((dats m) 0 c).arrAt_in 6 rfl _).trans ((A_eq m c 6).trans (V_main_arg7 m c))),
      ((h c).1 7).trans ((((dats m) 0 c).arrAt_in 7 rfl _).trans ((A_eq m c 7).trans (V_main_arg8 m c))),
      ((h c).1 8).trans ((((dats m) 0 c).arrAt_in 8 rfl _).trans ((A_eq m c 8).trans (V_main_arg9 m c))),
      (((h c).2 main_arg10 (Pipeline.mem_restRefs_of main_arg10 (by decide) (by decide))).trans (W_main_arg10 m (dats m) c)),
      ((h c).1 11).trans ((((dats m) 0 c).arrAt_in 11 rfl _).trans ((A_eq m c 11).trans (V_main_arg11 m c))),
      (((h c).2 main_arg12 (Pipeline.mem_restRefs_of main_arg12 (by decide) (by decide))).trans (W_main_arg12 m (dats m) c)),
      ((h c).1 13).trans ((((dats m) 0 c).arrAt_in 13 rfl _).trans ((A_eq m c 13).trans (V_main_arg13 m c)))⟩)
    (run_main m ρ)

end Cert.EdgeConv.Kernel

end
-- ==== Proof.RefMessage.lean ====
/-
  The reference program's per-edge message, read at an index.

  The reference computes, for edge e and channel c,
    relu (concat (x[row e], f e) · Wn1 + bn1) · Wn2 + bn2,
  where f e = (relu (ea e · We1 + be1) · We2 + be2) · sigmoid (ts e · Wt + bt) and the sigmoid is spelled
  1 / (1 + exp (−z)). Read element by element over the extended reals this is the message of the specification:
  the product against the [256, 128] weight splits into the sum over the gathered node row against the weight's
  upper half plus the sum over the edge feature against its lower half, and the contraction of the time stamp
  column over its single entry is that entry's term.
-/
import proofs.«414559_j7112465842373_3_alg».proof.Proof.Gen.ReferenceIdeal.Read
import proofs.«414559_j7112465842373_3_alg».proof.Proof.Spec
import proofs.«414559_j7112465842373_3_alg».proof.Proof.LibPlainDot
import proofs.«414559_j7112465842373_3_alg».proof.Proof.LibRowGather
import Idealize.ShloMosaic.Lib.StableHlo.Predicate
import Idealize.ShloMosaic.Lib.Pipeline.Value
import Idealize.ShloMosaic.PureOps.Ideal.Laws

noncomputable section

namespace Cert.EdgeConv.Ref

open Idealize.ShloMosaic Idealize.ShloMosaic.ValueIdx Cert.ReferenceIdeal Cert.ReferenceIdeal.Read Cert.EdgeConv

/-! ## The literals -/

/-- The word 0x3F800000 is the number one. -/
theorem ofBits_one_f32 : Ideal.ofBits .f32 0x3F800000#32 = 1 := by
  simp [Ideal.ofBits, Ideal.ieee, -EReal.coe_mul]; norm_num

/-- The zero the first relu compares against. -/
theorem zero0_apply (j : S500000x128.Idx) : val_main_call0_v0 (F := Ideal) j = 0 := by
  rw [val_main_call0_v0_apply, val_main_call0_cst_apply]; exact Ideal.ofBits_zero_f32

/-- The zero the second relu compares against. -/
theorem zero1_apply (j : S500000x128.Idx) : val_main_call1_v0 (F := Ideal) j = 0 := by
  rw [val_main_call1_v0_apply, val_main_call1_cst_apply]; exact Ideal.ofBits_zero_f32

/-- The one in the sigmoid's denominator. -/
theorem one16_apply (j : S500000x128.Idx) : val_main_v16 (F := Ideal) j = 1 := by
  rw [val_main_v16_apply, val_main_cst_apply]; exact ofBits_one_f32

/-- The one in the sigmoid's numerator. -/
theorem one18_apply (j : S500000x128.Idx) : val_main_v18 (F := Ideal) j = 1 := by
  rw [val_main_v18_apply, val_main_cst_0_apply]; exact ofBits_one_f32

/-! ## The biases: a [128] vector broadcast to a row and then down the rows reads the vector at the column -/

theorem bias3_apply (x5 : (⟨S128, .f32⟩ : BufTy).Contents (Elt Ideal)) (e : Fin 500000) (i : Fin 128) :
    val_main_v3 (F := Ideal) x5 (ix2 e i) = x5 (ix1 i) := by
  rw [val_main_v3_apply, val_main_v2_apply]
  exact congrArg x5 (funext fun a => by match a with | ⟨0, _⟩ => rfl)

theorem bias8_apply (x7 : (⟨S128, .f32⟩ : BufTy).Contents (Elt Ideal)) (e : Fin 500000) (i : Fin 128) :
    val_main_v8 (F := Ideal) x7 (ix2 e i) = x7 (ix1 i) := by
  rw [val_main_v8_apply, val_main_v7_apply]
  exact congrArg x7 (funext fun a => by match a with | ⟨0, _⟩ => rfl)

theorem bias12_apply (x9 : (⟨S128, .f32⟩ : BufTy).Contents (Elt Ideal)) (e : Fin 500000) (i : Fin 128) :
    val_main_v12 (F := Ideal) x9 (ix2 e i) = x9 (ix1 i) := by
  rw [val_main_v12_apply, val_main_v11_apply]
  exact congrArg x9 (funext fun a => by match a with | ⟨0, _⟩ => rfl)

theorem bias35_apply (x11 : (⟨S128, .f32⟩ : BufTy).Contents (Elt Ideal)) (e : Fin 500000) (i : Fin 128) :
    val_main_v35 (F := Ideal) x11 (ix2 e i) = x11 (ix1 i) := by
  rw [val_main_v35_apply, val_main_v34_apply]
  exact congrArg x11 (funext fun a => by match a with | ⟨0, _⟩ => rfl)

theorem bias40_apply (x13 : (⟨S128, .f32⟩ : BufTy).Contents (Elt Ideal)) (e : Fin 500000) (i : Fin 128) :
    val_main_v40 (F := Ideal) x13 (ix2 e i) = x13 (ix1 i) := by
  rw [val_main_v40_apply, val_main_v39_apply]
  exact congrArg x13 (funext fun a => by match a with | ⟨0, _⟩ => rfl)

/-! ## The operand indices of the products, at (e, c) -/

theorem lidx1_eq (e : Fin 500000) (c : Fin 128) (k : Fin 64) : lidx_main_v1 (ix2 e c) k = ix2 e k :=
  funext fun a => by match a with | ⟨0, _⟩ => rfl | ⟨1, _⟩ => rfl
theorem ridx1_eq (e : Fin 500000) (c : Fin 128) (k : Fin 64) : ridx_main_v1 (ix2 e c) k = ix2 k c :=
  funext fun a => by match a with | ⟨0, _⟩ => rfl | ⟨1, _⟩ => rfl
theorem lidx6_eq (e : Fin 500000) (c : Fin 128) (k : Fin 128) : lidx_main_v6 (ix2 e c) k = ix2 e k :=
  funext fun a => by match a with | ⟨0, _⟩ => rfl | ⟨1, _⟩ => rfl
theorem ridx6_eq (e : Fin 500000) (c : Fin 128) (k : Fin 128) : ridx_main_v6 (ix2 e c) k = ix2 k c :=
  funext fun a => by match a with | ⟨0, _⟩ => rfl | ⟨1, _⟩ => rfl
theorem lidx10_eq (e : Fin 500000) (c : Fin 128) (k : Fin 1) : lidx_main_v10 (ix2 e c) k = ix2 e k :=
  funext fun a => by match a with | ⟨0, _⟩ => rfl | ⟨1, _⟩ => rfl
theorem ridx10_eq (e : Fin 500000) (c : Fin 128) (k : Fin 1) : ridx_main_v10 (ix2 e c) k = ix2 k c :=
  funext fun a => by match a with | ⟨0, _⟩ => rfl | ⟨1, _⟩ => rfl
theorem lidx33_eq (e : Fin 500000) (c : Fin 128) (k : Fin 256) : lidx_main_v33 (ix2 e c) k = ix2 e k :=
  funext fun a => by match a with | ⟨0, _⟩ => rfl | ⟨1, _⟩ => rfl
theorem ridx33_eq (e : Fin 500000) (c : Fin 128) (k : Fin 256) : ridx_main_v33 (ix2 e c) k = ix2 k c :=
  funext fun a => by match a with | ⟨0, _⟩ => rfl | ⟨1, _⟩ => rfl
theorem lidx38_eq (e : Fin 500000) (c : Fin 128) (k : Fin 128) : lidx_main_v38 (ix2 e c) k = ix2 e k :=
  funext fun a => by match a with | ⟨0, _⟩ => rfl | ⟨1, _⟩ => rfl
theorem ridx38_eq (e : Fin 500000) (c : Fin 128) (k : Fin 128) : ridx_main_v38 (ix2 e c) k = ix2 k c :=
  funext fun a => by match a with | ⟨0, _⟩ => rfl | ⟨1, _⟩ => rfl

/-- The time stamps as a column: entry (e, 0) is the stamp of e. -/
theorem idx0_eq (e : Fin 500000) (u : Fin 1) : idx_main_v0 (ix2 e u) = ix1 e :=
  funext fun a => by match a with | ⟨0, _⟩ => rfl

/-! ## The edge encoder -/

/-- The hidden layer: relu (ea · We1 + be1). -/
theorem hidden_apply (x2 : (⟨S500000x64, .f32⟩ : BufTy).Contents (Elt Ideal))
    (x4 : (⟨S64x128, .f32⟩ : BufTy).Contents (Elt Ideal)) (x5 : (⟨S128, .f32⟩ : BufTy).Contents (Elt Ideal))
    (e : Fin 500000) (i : Fin 128) :
    val_main_v5 (F := Ideal) x2 x4 x5 (ix2 e i) = hidden x2 x4 x5 e i := by
  rw [val_main_v5_apply, val_main_v4_apply, val_main_v1_apply, bias3_apply, zero0_apply]
  simp only [lidx1_eq, ridx1_eq]
  rfl

/-- The time gate: the sigmoid, spelled 1 / (1 + exp (−z)), of ts · Wt + bt; the contraction has one term. -/
theorem gate_apply (x3 : (⟨S500000, .f32⟩ : BufTy).Contents (Elt Ideal))
    (x8 : (⟨S1x128, .f32⟩ : BufTy).Contents (Elt Ideal)) (x9 : (⟨S128, .f32⟩ : BufTy).Contents (Elt Ideal))
    (e : Fin 500000) (j : Fin 128) :
    val_main_v19 (F := Ideal) x3 x8 x9 (ix2 e j) = gate (colOf x3) x8 x9 e j := by
  rw [val_main_v19_apply, val_main_v17_apply, val_main_v15_apply, val_main_v14_apply, val_main_v13_apply,
    val_main_v10_apply, bias12_apply, one16_apply, one18_apply, Fin.sum_univ_one, val_main_v0_apply]
  simp only [lidx10_eq, ridx10_eq, idx0_eq]
  rfl

/-- The gated edge feature. -/
theorem feature_apply (x2 : (⟨S500000x64, .f32⟩ : BufTy).Contents (Elt Ideal))
    (x3 : (⟨S500000, .f32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S1x128, .f32⟩ : BufTy).Contents (Elt Ideal)) (x9 : (⟨S128, .f32⟩ : BufTy).Contents (Elt Ideal))
    (e : Fin 500000) (j : Fin 128) :
    val_main_v20 (F := Ideal) x2 x3 x4 x5 x6 x7 x8 x9 (ix2 e j) = feature x2 (colOf x3) x4 x5 x6 x7 x8 x9 e j := by
  rw [val_main_v20_apply, val_main_v9_apply, val_main_v6_apply, bias8_apply, gate_apply]
  simp only [lidx6_eq, ridx6_eq, hidden_apply]
  rfl

/-! ## The source rows: the index word, the gather -/

/-- Row 0 of the edge list, flattened: entry e is the source word of e. -/
theorem src_word (x1 : (⟨S2x500000, .i32⟩ : BufTy).Contents (Elt Ideal)) (e : Fin 500000) :
    val_main_v22 (F := Ideal) x1 (ix1 e) = x1 (ix2 (0 : Fin 2) e) := by
  rw [val_main_v22_apply, val_main_v21_apply]
  exact congrArg x1 (funext fun a => Fin.ext (by
    match a with
    | ⟨0, _⟩ => rfl
    | ⟨1, _⟩ => exact Nat.mod_eq_of_lt e.isLt))

/-- Row 1 of the edge list, flattened: entry e is the destination word of e. -/
theorem dst_word (x1 : (⟨S2x500000, .i32⟩ : BufTy).Contents (Elt Ideal)) (e : Fin 500000) :
    val_main_v24 (F := Ideal) x1 (ix1 e) = x1 (ix2 (1 : Fin 2) e) := by
  rw [val_main_v24_apply, val_main_v23_apply]
  exact congrArg x1 (funext fun a => Fin.ext (by
    match a with
    | ⟨0, _⟩ => rfl
    | ⟨1, _⟩ => exact Nat.mod_eq_of_lt e.isLt))

/-- A source word below 100000 is not negative as a signed word, so the wrap-around of negative indices keeps it. -/
theorem start_word (x1 : (⟨S2x500000, .i32⟩ : BufTy).Contents (Elt Ideal)) (e : Fin 500000) (u : Fin 1)
    (h : (x1 (ix2 (0 : Fin 2) e)).toNat < 100000) :
    val_main_v30 (F := Ideal) x1 (ix2 e u) = x1 (ix2 (0 : Fin 2) e) := by
  have hi : idx_main_v30 (ix2 e u) = ix1 e := funext fun a => by match a with | ⟨0, _⟩ => rfl
  rw [val_main_v30_apply, hi, val_main_v29_apply, val_main_v26_apply, val_main_v25_apply, val_main_c_apply, src_word]
  have hn : ¬ IntOp.cmpi .slt (x1 (ix2 (0 : Fin 2) e)) 0#32 = 1#1 := fun hc =>
    Nat.not_lt_zero _ ((StableHlo.Predicate.slt_iff_toNat (by omega) (by decide)).mp hc)
  exact if_neg hn

/-- The generated gather record is the row-gather record. -/
theorem gatherDims_eq : gather_S100000x128_S500000x1_S500000x128_1_0_n_n_0_1_1128
    = Cert.LibRowGather.rowDims 100000 128 500000 Gen.gather_S100000x128_S500000x1_S500000x128_1_0_n_n_0_1_1128_wf :=
  rfl

/-- The gathered table: row e is the node row the source word of e names. -/
theorem gathered_apply (x0 : (⟨S100000x128, .f32⟩ : BufTy).Contents (Elt Ideal))
    (x1 : (⟨S2x500000, .i32⟩ : BufTy).Contents (Elt Ideal)) (hr : InRange x1) (e : Fin 500000) (j : Fin 128) :
    val_main_v31 (F := Ideal) x0 x1 (ix2 e j) = gathered x0 x1 (ix2 e j) := by
  have hw : (x1 (ix2 (0 : Fin 2) e)).toNat < 100000 := hr 0 e
  unfold val_main_v31
  rw [gatherDims_eq, Cert.LibRowGather.gather_rows_apply (by decide)]
  have hI : (val_main_v30 (F := Ideal) x1 (ix2 e (0 : Fin 1))).toInt.toNat = (x1 (ix2 (0 : Fin 2) e)).toNat := by
    rw [start_word x1 e 0 hw, StableHlo.Predicate.toInt_eq_toNat_of_lt (by omega)]; exact Int.toNat_natCast _
  exact congrArg x0 (congrArg (fun r : Fin 100000 => (ix2 r j : S100000x128.Idx))
    (Fin.ext (by show min _ (100000 - 1) = min _ 99999; rw [hI])))

/-! ## The concatenation of the gathered rows and the edge features along the channels -/

section Concat
variable (x0 : (⟨S100000x128, .f32⟩ : BufTy).Contents (Elt Ideal)) (x1 : (⟨S2x500000, .i32⟩ : BufTy).Contents (Elt Ideal))
  (x2 : (⟨S500000x64, .f32⟩ : BufTy).Contents (Elt Ideal)) (x3 : (⟨S500000, .f32⟩ : BufTy).Contents (Elt Ideal))
  (x4 : (⟨S64x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S1x128, .f32⟩ : BufTy).Contents (Elt Ideal)) (x9 : (⟨S128, .f32⟩ : BufTy).Contents (Elt Ideal))

/-- Channels below 128 of the concatenated row are the gathered row. -/
theorem concat_left (e : Fin 500000) (k : Fin 128) :
    val_main_v32 (F := Ideal) x0 x1 x2 x3 x4 x5 x6 x7 x8 x9 (ix2 e (⟨k.val, by omega⟩ : Fin 256))
      = val_main_v31 (F := Ideal) x0 x1 (ix2 e k) := by
  unfold val_main_v32
  exact concatenate_pair_apply_left (t := S500000x256) (s₁ := S500000x128) (s₂ := S500000x128) (1 : Fin 2) _ _ _
    (ix2 e (⟨k.val, by omega⟩ : Fin 256)) rfl (ix2 e k)
    (fun b => by match b with | ⟨0, _⟩ => rfl | ⟨1, _⟩ => rfl)

/-- Channels from 128 on of the concatenated row are the edge feature. -/
theorem concat_right (e : Fin 500000) (k : Fin 128) :
    val_main_v32 (F := Ideal) x0 x1 x2 x3 x4 x5 x6 x7 x8 x9 (ix2 e (⟨128 + k.val, by omega⟩ : Fin 256))
      = val_main_v20 (F := Ideal) x2 x3 x4 x5 x6 x7 x8 x9 (ix2 e k) := by
  unfold val_main_v32
  exact concatenate_pair_apply_right (t := S500000x256) (s₁ := S500000x128) (s₂ := S500000x128) (1 : Fin 2) _ _ _
    (ix2 e (⟨128 + k.val, by omega⟩ : Fin 256)) rfl rfl (ix2 e k)
    (fun b hb => by
      match b with
      | ⟨0, _⟩ => rfl
      | ⟨1, _⟩ => exact absurd rfl hb)
    (by show k.val + 128 = 128 + k.val; omega)

end Concat

/-- A sum over 256 channels is the sum over the lower 128 plus the sum over the upper 128. -/
theorem sum256_split (f : Fin 256 → EReal) :
    ∑ k : Fin 256, f k = (∑ j : Fin 128, f ⟨j.val, by omega⟩) + ∑ j : Fin 128, f ⟨128 + j.val, by omega⟩ :=
  Fin.sum_univ_add (a := 128) (b := 128) f

/-! ## The node encoder -/

section Node
variable (x0 : (⟨S100000x128, .f32⟩ : BufTy).Contents (Elt Ideal)) (x1 : (⟨S2x500000, .i32⟩ : BufTy).Contents (Elt Ideal))
  (x2 : (⟨S500000x64, .f32⟩ : BufTy).Contents (Elt Ideal)) (x3 : (⟨S500000, .f32⟩ : BufTy).Contents (Elt Ideal))
  (x4 : (⟨S64x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S1x128, .f32⟩ : BufTy).Contents (Elt Ideal)) (x9 : (⟨S128, .f32⟩ : BufTy).Contents (Elt Ideal))
  (x10 : (⟨S256x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))

/-- The hidden layer of the node encoder: the product against the [256, 128] weight, split at channel 128 into the
    gathered row against the upper half and the edge feature against the lower half. -/
theorem nodeHidden_apply (hr : InRange x1) (e : Fin 500000) (k : Fin 128) :
    val_main_v37 (F := Ideal) x0 x1 x2 x3 x4 x5 x6 x7 x8 x9 x10 x11 (ix2 e k)
      = nodeHidden (gathered x0 x1) (feature x2 (colOf x3) x4 x5 x6 x7 x8 x9) (topHalf x10) (botHalf x10) x11 e k := by
  rw [val_main_v37_apply, val_main_v36_apply, val_main_v33_apply, bias35_apply, zero1_apply]
  simp only [lidx33_eq, ridx33_eq]
  rw [sum256_split]
  simp only [concat_left, concat_right, gathered_apply x0 x1 hr, feature_apply]
  rfl

/-- THE MESSAGE of edge e at channel c, as the reference computes it. -/
theorem message_apply (hr : InRange x1) (e : Fin 500000) (c : Fin 128) :
    val_main_v41 (F := Ideal) x0 x1 x2 x3 x4 x5 x6 x7 x8 x9 x10 x11 x12 x13 (ix2 e c)
      = message x2 (colOf x3) (gathered x0 x1) x4 x5 x6 x7 x8 x9 (topHalf x10) (botHalf x10) x11 x12 x13 e c := by
  rw [val_main_v41_apply, val_main_v38_apply, bias40_apply]
  simp only [lidx38_eq, ridx38_eq, nodeHidden_apply x0 x1 x2 x3 x4 x5 x6 x7 x8 x9 x10 x11 hr]
  rfl

end Node

/-- The scatter's index column: entry (e, 0) is the destination word of e. -/
theorem destCol_eq (x1 : (⟨S2x500000, .i32⟩ : BufTy).Contents (Elt Ideal)) :
    val_main_v43 (F := Ideal) x1 = destCol x1 := by
  funext i
  have hi : idx_main_v43 i = ix1 (⟨(i 0).val, (i 0).isLt⟩ : Fin 500000) :=
    funext fun a => by match a with | ⟨0, _⟩ => rfl
  rw [val_main_v43_apply, hi, dst_word]
  rfl

end Cert.EdgeConv.Ref

end
-- ==== Proof.RefRun.lean ====
/-
  The reference program's result, read back: a scatter-add of the same messages into a zero table, plus x. On the extended
  reals that is x plus the same sum of messages per node: addition is commutative and zero is its unit, whatever the
  values.
-/
import proofs.«414559_j7112465842373_3_alg».proof.Proof.RefMessage
import proofs.«414559_j7112465842373_3_alg».proof.Proof.KernelRun

noncomputable section

namespace Cert.EdgeConv.Ref

open Idealize.ShloMosaic Idealize.ShloMosaic.ValueIdx Cert.ReferenceIdeal Cert.ReferenceIdeal.Read Cert.EdgeConv

/-- The two programs scatter with the same dimension numbers. -/
theorem scatterDims_eq : Cert.ReferenceIdeal.scatter_S100000x128_S500000x1_S500000x128_1_0_0_1
    = Cert.KernelIdeal.scatter_S100000x128_S500000x1_S500000x128_1_0_0_1 := rfl

/-- The reference's result is the kernel program's: x with the messages added at their destination rows. -/
theorem result_eq
    (x0 : (⟨S100000x128, .f32⟩ : BufTy).Contents (Elt Ideal)) (x1 : (⟨S2x500000, .i32⟩ : BufTy).Contents (Elt Ideal))
    (x2 : (⟨S500000x64, .f32⟩ : BufTy).Contents (Elt Ideal)) (x3 : (⟨S500000, .f32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S1x128, .f32⟩ : BufTy).Contents (Elt Ideal)) (x9 : (⟨S128, .f32⟩ : BufTy).Contents (Elt Ideal))
    (x10 : (⟨S256x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal))
    (hr : InRange x1) :
    val_main_v45 (F := Ideal) x0 x1 x2 x3 x4 x5 x6 x7 x8 x9 x10 x11 x12 x13
      = Host.scatterAdd (F := Ideal) (φ := .f32) Cert.KernelIdeal.scatter_S100000x128_S500000x1_S500000x128_1_0_0_1
          x0 (destCol x1) (Kernel.msgOf x0 x1 x2 x3 x4 x5 x6 x7 x8 x9 x10 x11 x12 x13) := by
  have hmsg : val_main_v41 (F := Ideal) x0 x1 x2 x3 x4 x5 x6 x7 x8 x9 x10 x11 x12 x13 = Kernel.msgOf x0 x1 x2 x3 x4 x5 x6 x7 x8 x9 x10 x11 x12 x13 := by
    funext i
    obtain ⟨e, q, rfl⟩ : ∃ (e : Fin 500000) (q : Fin 128), i = ix2 e q := ⟨i 0, i 1, eq_ix2 i⟩
    exact message_apply x0 x1 x2 x3 x4 x5 x6 x7 x8 x9 x10 x11 x12 x13 hr e q
  funext i
  have hz : val_main_v42 (F := Ideal) i = 0 := by
    rw [val_main_v42_apply]
    exact Ideal.ofBits_zero_f32
  rw [val_main_v45_apply]
  unfold val_main_v44
  rw [hmsg, destCol_eq, scatterDims_eq]
  simp only [Host.scatterAdd, Ideal.hostScatterAdd_def, Ideal.addf_def, Ideal.hostScatterAdd, hz, zero_add]
  exact add_comm _ _

end Cert.EdgeConv.Ref

end
-- ==== Proof.lean ====
/-
  A temporal edge convolution: for every edge e from node row(e) to node col(e), a message is computed from the edge's
  attributes, its time stamp and the source node's row x[row(e), ·] by two small dense networks and a logistic time gate;
  the result is x plus, at each node, the sum of the messages of the edges that end there.

  The kernel's program gathers the source rows on the host (a take that zero-fills out-of-range rows), computes the
  messages in a Pallas kernel over 125 blocks of 4000 edges (the node encoder's first layer as two products against the two
  halves of Wn1), and scatter-adds them into x. The reference concatenates, multiplies by the whole Wn1, sums the messages
  per node into a zero table and adds x. Over the extended reals both are
      x[n, c] + Σ { message(e)[c] : col(e) = n },
  provided every word of the edge-index table names a node (0 ≤ w < 100000): outside that range the reference's gather
  clamps where the kernel's take fills with zero, and the kernel's scatter wraps a negative destination where the
  reference's drops it. The joining laws are the split of a sum over 256 terms into two sums over 128 and the
  commutativity of addition; no finiteness of the float inputs is used.
-/
import proofs.«414559_j7112465842373_3_alg».proof.Defs
import proofs.«414559_j7112465842373_3_alg».proof.Proof.Gen.Kernel
import proofs.«414559_j7112465842373_3_alg».proof.Proof.Gen.Kernel.Skeleton
import proofs.«414559_j7112465842373_3_alg».proof.Proof.Gen.Kernel.Launch
import proofs.«414559_j7112465842373_3_alg».proof.Proof.Gen.Kernel.Points
import proofs.«414559_j7112465842373_3_alg».proof.Proof.Gen.Kernel.Frame
import proofs.«414559_j7112465842373_3_alg».proof.Proof.Gen.KernelIdeal
import proofs.«414559_j7112465842373_3_alg».proof.Proof.Gen.KernelIdeal.Skeleton
import proofs.«414559_j7112465842373_3_alg».proof.Proof.Gen.KernelIdeal.Launch
import proofs.«414559_j7112465842373_3_alg».proof.Proof.Gen.KernelIdeal.Points
import proofs.«414559_j7112465842373_3_alg».proof.Proof.Gen.KernelIdeal.Frame
import proofs.«414559_j7112465842373_3_alg».proof.Proof.Gen.ReferenceIdeal
import proofs.«414559_j7112465842373_3_alg».proof.Proof.Gen.ReferenceIdeal.Run
import proofs.«414559_j7112465842373_3_alg».proof.Proof.Gen.ReferenceIdeal.Read
import proofs.«414559_j7112465842373_3_alg».proof.Proof.Gen.Pre_finite_inputs
import proofs.«414559_j7112465842373_3_alg».proof.Proof.Precondition
import proofs.«414559_j7112465842373_3_alg».proof.Proof.KernelRun
import proofs.«414559_j7112465842373_3_alg».proof.Proof.RefRun
import Idealize.ShloMosaic.Adequacy
import Idealize.ShloMosaic.Init

noncomputable section

namespace Cert.Proof

open Idealize.ShloMosaic Idealize.SL.Sem Cert.EdgeConv

/-- The word-level kernel program runs and keeps its arguments. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with x plus the per-node sums of the messages. -/
theorem algebraic : Cert.algebraic_KernelIdeal_ReferenceIdeal := by
  intro m ρ m' ρ' hpre hagree
  have hr : ∀ c : Dev Cert.KernelIdeal.nD,
      InRange (m ((c.tc : Thread Cert.KernelIdeal.nD Cert.KernelIdeal.τ).loc Cert.KernelIdeal.main_arg1)) :=
    fun c => Pre.inRange_of_pre _ _ _ _ _ _ _ _ _ _ _ _ _ _ (hpre c)
  refine ⟨fun c => Kernel.resultOf m c, Kernel.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact Ref.result_eq _ _ _ _ _ _ _ _ _ _ _ _ _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
